-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S4096x512 : Shape := ⟨2, ![4096, 512]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | _, _ => ⟨S2048x512, .f32⟩

abbrev bufScoped : (cs : CoreSpace) → Fin (nBuf (.core cs)) → Bool
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v17 : BitVec 32 := Scalar.muli v2 c2048_i32
  let c0_i32_12 : BitVec 32 := 0#32
  ![v17.toNat, 0]
def k0_dev2 (d0 : Dev nD) : Nat :=
  let c0_i32_9 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_8 : BitVec 32 := 16#32
  let v18 : BitVec 32 := Scalar.muli v9 c16_i32_8
  let v19 : BitVec 32 := Scalar.addi c0_i32_9 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v20 : BitVec 32 := Scalar.muli v5 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat

class Facts₀ : Prop where
  hamt_1 : (1#32 : BitVec 32).msb = false
  hcc0_scratch0 : 0 + S_.numel ≤ 3
  hcc0_scratch1 : 1 + S_.numel ≤ 3
  hcc0_scratch2 : 2 + S_.numel ≤ 3
  k0_dev1_lt : ∀ d0 : Dev nD, (k0_dev1 d0) < nD
  k0_off1_inb : ∀ d0 : Dev nD, ∀ a, (k0_off1 d0) a + S2048x512.size a ≤ S4096x512.size a
  k0_dev2_lt : ∀ d0 : Dev nD, (k0_dev2 d0) < nD

variable [Facts₀]

abbrev cc0_scratch0 : DmaSems sig S_ := SemArray.consecutive 0 S_ hcc0_scratch0
abbrev cc0_scratch1 : DmaSems sig S_ := SemArray.consecutive 1 S_ hcc0_scratch1
abbrev cc0_scratch2 : DmaSems sig S_ := SemArray.consecutive 2 S_ hcc0_scratch2

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Kernel.Schedule.lean ====
/-
  The pairwise exchange behind this all-gather, as a protocol.

  The 32 devices sit on a 2 × 4 × 4 mesh, device `c` at (c / 16, c / 4 % 4, c % 4), and the array is cut in two
  along its rows over the first axis only: device `c` holds the 2048 rows starting at row 2048 · (c / 16). Every
  device is paired with the one that differs from it in the first coordinate alone — `peer c = c ± 16`, an
  involution — and the pair gathers the whole array between them: each copies its own block into its own result at
  the block's rows, and sends the same block to the same rows of its partner's result. The two destinations on one
  device are the two halves of the result, disjoint and together everything.

  Four semaphores per device carry it. The BARRIER semaphore (waited for 1) is raised once, by the partner, when the
  partner has entered the kernel: with that unit the partner hands over the half of ITS result that this device's
  block will be written to, and the news that it stands at round 0 of its receive cell. The SEND cell is paid by the
  device's own addressed transfer once its source has been read, and gives the source's share back. The RECEIVE cell
  is paid by the partner's transfer once it has landed, and gives back this device's other half holding the
  partner's block. The LOCAL cell is paid by the device's own local copy and gives back its own half holding its own
  block, with the other share of the source. Each cell has one round of one duty.

  A device waits on its barrier while it still owes its partner's receive cell the transfer; barrier cells sit at
  level 1, receive cells at level 2, so the wait is below what is owed and no cycle of waits can form.
-/
import proofs.«900499_g7700000000000500_dist_ag_v7x_xyz2x4x4_x_m2048_n512_f32_1_alg».proof.Proof.Gen.Kernel
import proofs.«900499_g7700000000000500_dist_ag_v7x_xyz2x4x4_x_m2048_n512_f32_1_alg».proof.Proof.Gen.Kernel.Skeleton
import proofs.«900499_g7700000000000500_dist_ag_v7x_xyz2x4x4_x_m2048_n512_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's own (one duty a round: `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The pairing -/

/-- The device across the first mesh axis: the other value of the first coordinate, the other two kept. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
theorem peer_row (c : Dev nD) : (peer c).val / 16 = 1 - c.val / 16 := by revert c; decide
theorem row_le (c : Dev nD) : c.val / 16 ≤ 1 := by revert c; decide

/-- The kernel's two `device_id` chains (the signal's and the transfer's) both name the partner. -/
theorem dev1_eq (c : Dev nD) : (⟨k0_dev1 c, Gen.k0_dev1_lt c⟩ : Dev nD) = peer c :=
  Fin.ext ((k0_dev1_eq c).trans (by revert c; decide))
theorem dev2_eq (c : Dev nD) : (⟨k0_dev2 c, Gen.k0_dev2_lt c⟩ : Dev nD) = peer c :=
  Fin.ext ((k0_dev2_eq c).trans (by revert c; decide))

def pairing : Dev nD ≃ Dev nD := ⟨peer, peer, peer_peer, peer_peer⟩

/-! ## The memrefs and cells -/

/-- A device's block of the array (the kernel's operand) and its result, both whole HBM buffers. -/
abbrev xM : Memref sig .tc .hbm S2048x512 .f32 := Memref.whole main_arg0
abbrev oM : Memref sig .tc .hbm S4096x512 .f32 := Memref.whole main_v1

/-- The rows of a result array that device `d`'s block belongs at: 2048 rows from row 2048 · (d / 16), every column. -/
abbrev half (d : Dev nD) : Memref sig .tc .hbm S2048x512 .f32 :=
  oM.slice (Rect.unit (s := S4096x512) (k0_off1 d) S2048x512.size (Gen.k0_off1_inb d)) (fun _ => rfl)

abbrev barS : Sem sig := (SemArray.scalar (sig.barrier 0 rfl) : Sems sig S_).sem
abbrev locS : DmaSems sig S_ := cc0_scratch0
abbrev sendS : DmaSems sig S_ := cc0_scratch1
abbrev recvS : DmaSems sig S_ := cc0_scratch2

abbrev barCell (c : Dev nD) : GSem nD τ sig := ((c : Thread nD τ), .reg barS)
abbrev locCell (c : Dev nD) : GSem nD τ sig := ((c : Thread nD τ), .dma locS.sem)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: local, send, receive; -/
abbrev osem : Fin 3 → SemLoc sig := fun | 0 => .dma locS.sem | 1 => .dma sendS.sem | 2 => .dma recvS.sem
/-- all four of the exchange's: barrier, local, send, receive. -/
abbrev csem : Fin 4 → SemLoc sig := fun | 0 => .reg barS | 1 => .dma locS.sem | 2 => .dma sendS.sem | 3 => .dma recvS.sem
abbrev kcell (ck : Dev nD × Fin 4) : GSem nD τ sig := ((ck.1 : Thread nD τ), csem ck.2)

/-- What one block's transfer credits a DMA cell, and what the wait for it consumes: a number that depends on the
    block's shape and element type only, the same whichever half or block the view is of. It is only ever compared,
    never computed, so it is sealed once its equations are stated. -/
def N : ℕ := (half (0 : Dev nD)).view.dmaCredit
theorem N_pos : 0 < N := View.dmaCredit_pos _ (by decide)
theorem N_half (d : Dev nD) : (half d).view.dmaCredit = N := rfl
theorem N_blk : (xM : Memref sig .tc .hbm S2048x512 .f32).view.dmaCredit = N := rfl
attribute [irreducible] N

/-! ## The two halves of a result -/

omit [FloatOps F] in
theorem half_set (d : Dev nD) :
    (half d).view.set = (Rect.unit (s := S4096x512) (k0_off1 d) S2048x512.size (Gen.k0_off1_inb d)).set :=
  View.set_slice_whole main_v1 _

/-- Row `i` lies in `d`'s half exactly when `i / 2048` is `d`'s first coordinate. -/
theorem mem_half (d : Dev nD) (i : S4096x512.Idx) :
    i ∈ (half d).view.set ↔ 2048 * (d.val / 16) ≤ (i 0).val ∧ (i 0).val < 2048 * (d.val / 16) + 2048 := by
  rw [half_set, Rect.mem_set_unit, k0_off1_eq, Fin.forall_fin_two]
  have h1 : (i 1).val < 512 := (i 1).isLt
  constructor
  · rintro ⟨h, -⟩; exact h
  · intro h; exact ⟨h, Nat.zero_le _, by show (i 1).val < 0 + 512; omega⟩

/-- The partner's half is the complement of one's own: the two halves are disjoint and cover the result. -/
theorem half_compl (c : Dev nD) : Finset.univ \ (half c).view.set = (half (peer c)).view.set := by
  ext i
  rw [Finset.mem_sdiff, mem_half, mem_half, peer_row]
  have h0 : (i 0).val < 4096 := (i 0).isLt
  have hr := row_le c
  simp only [Finset.mem_univ, true_and]
  omega

theorem half_disjoint (c : Dev nD) : Disjoint (half c).view.set (half (peer c)).view.set := by
  rw [← half_compl]; exact Finset.disjoint_sdiff

/-! ## Contents -/

variable (m : (ℓ : Loc nD τ sig) → Buf (Elt F) ℓ)

/-- Device `c`'s block, as launched. -/
def blk (c : Dev nD) : Buf (Elt F) ((xM : Memref sig .tc .hbm S2048x512 .f32).view.loc (c : Thread nD τ)) :=
  m ((c : Thread nD τ).loc main_arg0)

/-- What device `c`'s result ends holding: on its own half its own block, written there by its local copy, and on
    the other half the partner's block, written there by the partner's transfer. (Each piece is spelt as a write of
    the block through the half's view over the launch contents, of which nothing shows under the view.) -/
def gathered (c : Dev nD) : Buf (Elt F) ((c : Thread nD τ).loc main_v1) := fun i : S4096x512.Idx =>
  if i ∈ (half c).view.set then
    (half c).view.write (Elt F) (m ((c : Thread nD τ).loc main_v1)) ((xM : Memref sig .tc .hbm S2048x512 .f32).view.read (Elt F) (blk m c)) Finset.univ i
  else
    (half (peer c)).view.write (Elt F) (m ((c : Thread nD τ).loc main_v1)) ((xM : Memref sig .tc .hbm S2048x512 .f32).view.read (Elt F) (blk m (peer c))) Finset.univ i

omit [FloatOps F] in
/-- Under a view's own elements an unmasked write shows the written values only: what was there before is gone. -/
theorem write_agree {S : Shape} {e : EltTy} (v : View sig .tc .hbm S e) (f g : v.ty.Contents (Elt F)) (w : S.Idx → Elt F e)
    {i : v.ty.Idx} (hi : i ∈ v.set) : v.write (Elt F) f w Finset.univ i = v.write (Elt F) g w Finset.univ i := by
  obtain ⟨y, rfl⟩ := View.exists_emb_of_mem_set v hi
  rw [View.write_emb_of_mem _ _ (Finset.mem_univ y), View.write_emb_of_mem _ _ (Finset.mem_univ y)]

omit [FloatOps F] in
/-- On its own half a device's result ends at its own block, whatever the half held when the copy was issued. -/
theorem gathered_own (c : Dev nD) (fd : Buf (Elt F) ((c : Thread nD τ).loc main_v1)) (i : S4096x512.Idx) (hi : i ∈ (half c).view.set) :
    (half c).view.write (Elt F) fd ((xM : Memref sig .tc .hbm S2048x512 .f32).view.read (Elt F) (blk m c)) Finset.univ i = gathered m c i := by
  unfold gathered
  rw [if_pos hi]
  exact write_agree (half c).view _ _ _ hi

omit [FloatOps F] in
/-- On the partner's half it ends at the partner's block, whatever that half held when the transfer was issued. -/
theorem gathered_peer (c : Dev nD) (fd : Buf (Elt F) ((c : Thread nD τ).loc main_v1)) (i : S4096x512.Idx) (hi : i ∈ (half (peer c)).view.set) :
    (half (peer c)).view.write (Elt F) fd ((xM : Memref sig .tc .hbm S2048x512 .f32).view.read (Elt F) (blk m (peer c))) Finset.univ i = gathered m c i := by
  have hni : i ∉ (half c).view.set := fun h => by
    rw [mem_half] at h hi; rw [peer_row] at hi; have := row_le c; omega
  unfold gathered
  rw [if_neg hni]
  exact write_agree (half (peer c)).view _ _ _ hi

/-! ## The payloads -/

/-- Device `c`'s own half of its result, at contents `f`; its partner's half; on any device `d`, the rows of `b`'s block. -/
def halfPts (d b : Dev nD) (f : Buf (Elt F) ((half b).view.loc (d : Thread nD τ))) : sProp 𝕄 :=
  (half b).view.loc (d : Thread nD τ) ↦[(half b).view.set]{fullShare} f
/-- A share of device `c`'s block at its launch contents. -/
def blkPts (c : Dev nD) (q : PosShare TreeShare) : sProp 𝕄 :=
  (xM : Memref sig .tc .hbm S2048x512 .f32).view.loc (c : Thread nD τ) ↦[(xM : Memref sig .tc .hbm S2048x512 .f32).view.set]{q} blk m c

omit [FloatOps F] in
instance halfPts_storable (d b : Dev nD) (f) : BI.Storable (upEmb : UEmb _ 𝕄) (halfPts (F := F) d b f) := by unfold halfPts; infer_instance
omit [FloatOps F] in
instance blkPts_storable (c : Dev nD) (q) : BI.Storable (upEmb : UEmb _ 𝕄) (blkPts (F := F) m c q) := by unfold blkPts; infer_instance

/-- With its barrier unit the partner hands device `c` the rows of ITS result that `c`'s block goes to, at whatever
    they hold, and that it stands at round 0 of its receive cell. -/
def barPay (c : Dev nD) : sProp 𝕄 := iprop((∃ f, halfPts (peer c) c f) ∗ reached ER (recvCell (peer c)) 0)
/-- The partner's landed transfer gives device `c` the partner's half of its result at its final contents. -/
def recvPay (c : Dev nD) : sProp 𝕄 := halfPts c (peer c) (gathered m c)
/-- The transfer's source side gives back the share of the block it read. -/
def sendPay (c : Dev nD) : sProp 𝕄 := blkPts m c fullShare.left
/-- The local copy gives back the device's own half at its final contents and the other share of the block. -/
def locPay (c : Dev nD) : sProp 𝕄 := iprop(halfPts c c (gathered m c) ∗ blkPts m c fullShare.right)

/-! ## The schedule -/

abbrev IsBar (g : GSem nD τ sig) : Prop := g.1.2 = .tc ∧ g.2 = .reg barS
abbrev IsDma (g : GSem nD τ sig) : Prop := g.1.2 = .tc ∧ (g.2 = .dma locS.sem ∨ g.2 = .dma sendS.sem ∨ g.2 = .dma recvS.sem)

/-- One round, round 0, one duty in it: a barrier cell's of one unit, a DMA cell's of a block's credit. -/
def pairRd : Rounds.Schedule (GSem nD τ sig) Unit 𝕄 where
  duties g r := if r = 0 ∧ IsBar g then {()} else if r = 0 ∧ IsDma g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else if g.2 = .dma locS.sem then locPay m g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else if g.2 = .dma locS.sem then locPay m g.1.1 else iprop(emp))
  unfold barPay recvPay sendPay locPay
  (repeat' split) <;> infer_instance

section Sched
variable (c : Dev nD)

theorem loc_ne_bar : (SemLoc.dma locS.sem : SemLoc sig) ≠ .reg barS := fun h => by cases h
theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem loc_ne_recv : (SemLoc.dma locS.sem : SemLoc sig) ≠ .dma recvS.sem := by decide
theorem loc_ne_send : (SemLoc.dma locS.sem : SemLoc sig) ≠ .dma sendS.sem := by decide
theorem not_bar_loc : ¬ IsBar (locCell c) := fun h => loc_ne_bar h.2
theorem not_bar_send : ¬ IsBar (sendCell c) := fun h => send_ne_bar h.2
theorem not_bar_recv : ¬ IsBar (recvCell c) := fun h => recv_ne_bar h.2

omit [FloatOps F] in
theorem duties_bar : (pairRd (F := F) m).duties (barCell c) 0 = {()} := by dsimp only [pairRd]; exact if_pos ⟨rfl, rfl, rfl⟩
omit [FloatOps F] in
theorem duties_loc : (pairRd (F := F) m).duties (locCell c) 0 = {()} := by
  dsimp only [pairRd]; rw [if_neg (fun h => not_bar_loc c h.2)]; exact if_pos ⟨rfl, rfl, .inl rfl⟩
omit [FloatOps F] in
theorem duties_send : (pairRd (F := F) m).duties (sendCell c) 0 = {()} := by
  dsimp only [pairRd]; rw [if_neg (fun h => not_bar_send c h.2)]; exact if_pos ⟨rfl, rfl, .inr (.inl rfl)⟩
omit [FloatOps F] in
theorem duties_recv : (pairRd (F := F) m).duties (recvCell c) 0 = {()} := by
  dsimp only [pairRd]; rw [if_neg (fun h => not_bar_recv c h.2)]; exact if_pos ⟨rfl, rfl, .inr (.inr rfl)⟩
omit [FloatOps F] in
theorem duties_later (g : GSem nD τ sig) : ∀ r, 1 ≤ r → (pairRd (F := F) m).duties g r = ∅ :=
  fun r hr => by dsimp only [pairRd]; rw [if_neg fun h => by omega, if_neg fun h => by omega]

omit [FloatOps F] in
theorem amount_bar (d : Unit) : (pairRd (F := F) m).amount (barCell c) 0 d = 1 := by dsimp only [pairRd]; exact if_pos rfl
omit [FloatOps F] in
theorem amount_loc (d : Unit) : (pairRd (F := F) m).amount (locCell c) 0 d = N := by dsimp only [pairRd]; exact if_neg loc_ne_bar
omit [FloatOps F] in
theorem amount_send (d : Unit) : (pairRd (F := F) m).amount (sendCell c) 0 d = N := by dsimp only [pairRd]; exact if_neg send_ne_bar
omit [FloatOps F] in
theorem amount_recv (d : Unit) : (pairRd (F := F) m).amount (recvCell c) 0 d = N := by dsimp only [pairRd]; exact if_neg recv_ne_bar

omit [FloatOps F] in
/-- A round of one duty expects that duty's amount. -/
theorem expect_single (g : GSem nD τ sig) (hd : (pairRd (F := F) m).duties g 0 = {()}) (k : ℕ)
    (ha : (pairRd (F := F) m).amount g 0 () = k) : (pairRd (F := F) m).expect g 0 = k := by
  unfold Schedule.expect Schedule.amountOf
  rw [hd, Finset.sum_singleton, ha]
omit [FloatOps F] in
theorem expect_bar : (pairRd (F := F) m).expect (barCell c) 0 = 1 := expect_single m _ (duties_bar m c) 1 (amount_bar m c ())
omit [FloatOps F] in
theorem expect_loc : (pairRd (F := F) m).expect (locCell c) 0 = N := expect_single m _ (duties_loc m c) N (amount_loc m c ())
omit [FloatOps F] in
theorem expect_send : (pairRd (F := F) m).expect (sendCell c) 0 = N := expect_single m _ (duties_send m c) N (amount_send m c ())
omit [FloatOps F] in
theorem expect_recv : (pairRd (F := F) m).expect (recvCell c) 0 = N := expect_single m _ (duties_recv m c) N (amount_recv m c ())

omit [FloatOps F] in
theorem payload_bar (d : Unit) : (pairRd (F := F) m).payload (barCell c) 0 d = barPay c := by dsimp only [pairRd]; rw [if_pos rfl]
omit [FloatOps F] in
theorem payload_recv (d : Unit) : (pairRd (F := F) m).payload (recvCell c) 0 d = recvPay m c := by
  dsimp only [pairRd]; rw [if_neg recv_ne_bar, if_pos rfl]
omit [FloatOps F] in
theorem payload_send (d : Unit) : (pairRd (F := F) m).payload (sendCell c) 0 d = sendPay m c := by
  dsimp only [pairRd]; rw [if_neg send_ne_bar, if_neg send_ne_recv, if_pos rfl]
omit [FloatOps F] in
theorem payload_loc (d : Unit) : (pairRd (F := F) m).payload (locCell c) 0 d = locPay m c := by
  dsimp only [pairRd]; rw [if_neg loc_ne_bar, if_neg loc_ne_recv, if_neg loc_ne_send, if_pos rfl]

omit [FloatOps F] in
/-- The whole of a cell's round, no duty taken yet, is its one payload. -/
theorem rest_bar : bigSep ((pairRd (F := F) m).duties (barCell c) 0 \ ∅) (fun d => (pairRd (F := F) m).payload (barCell c) 0 d) = barPay c := by
  rw [Finset.sdiff_empty, duties_bar, bigSep_singleton, payload_bar]
omit [FloatOps F] in
theorem rest_loc : bigSep ((pairRd (F := F) m).duties (locCell c) 0 \ ∅) (fun d => (pairRd (F := F) m).payload (locCell c) 0 d) = locPay m c := by
  rw [Finset.sdiff_empty, duties_loc, bigSep_singleton, payload_loc]
omit [FloatOps F] in
theorem rest_send : bigSep ((pairRd (F := F) m).duties (sendCell c) 0 \ ∅) (fun d => (pairRd (F := F) m).payload (sendCell c) 0 d) = sendPay m c := by
  rw [Finset.sdiff_empty, duties_send, bigSep_singleton, payload_send]
omit [FloatOps F] in
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Sched

/-! ## What each device owes at launch; the levels -/

/-- Device `c` owes its partner's receive cell a block's credit and its partner's barrier cell one unit — summed so
    that the signal, which comes first, peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, the rest (local, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Pair

end
-- ==== Proof.Kernel.Data.lean ====
/-
  What one device holds while it takes part in the exchange: the ghost state of its four cells, the invariant
  before the kernel's one point and after it, and the pipeline's proof data (a kernel with no staged window).
-/
import proofs.«900499_g7700000000000500_dist_ag_v7x_xyz2x4x4_x_m2048_n512_f32_1_alg».proof.Proof.Kernel.Schedule

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The cells' invariants device `c`'s body opens, under the names `K` the launch allocated them at: its own four, and
    its partner's barrier cell (its signal) and receive cell (its transfer). -/
def invs (K : Dev nD × Fin 4 → ℕ) (c : Dev nD) : sProp 𝕄 :=
  iprop(cellInv ER (pairRd m) (K (c, 0)) (barCell c) ∗ cellInv ER (pairRd m) (K (c, 1)) (locCell c)
    ∗ cellInv ER (pairRd m) (K (c, 2)) (sendCell c) ∗ cellInv ER (pairRd m) (K (c, 3)) (recvCell c)
    ∗ cellInv ER (pairRd m) (K (peer c, 0)) (barCell (peer c)) ∗ cellInv ER (pairRd m) (K (peer c, 3)) (recvCell (peer c)))

instance invs_persistent (K : Dev nD × Fin 4 → ℕ) (c : Dev nD) : BI.Persistent (invs m K c) := by unfold invs; infer_instance

/-- The exchange's ghost state device `c` starts from: the invariants; its positions at round 0 of its four cells; the
    reached-marks of the two cells of its partner it pays and of its own three DMA cells; the four duty tokens it pays
    with — its partner's barrier duty and receive duty, its own local and send duties. -/
def ghost (K : Dev nD × Fin 4 → ℕ) (c : Dev nD) : sProp 𝕄 :=
  iprop(invs m K c
    ∗ atPos ER (barCell c) 0 ∅ 0 ∗ atPos ER (locCell c) 0 ∅ 0 ∗ atPos ER (sendCell c) 0 ∅ 0 ∗ atPos ER (recvCell c) 0 ∅ 0
    ∗ reached ER (barCell (peer c)) 0 ∗ reached ER (recvCell (peer c)) 0 ∗ reached ER (locCell c) 0 ∗ reached ER (sendCell c) 0 ∗ reached ER (recvCell c) 0
    ∗ dutyTok ER (barCell (peer c)) 0 () ∗ dutyTok ER (recvCell (peer c)) 0 () ∗ dutyTok ER (locCell c) 0 () ∗ dutyTok ER (sendCell c) 0 ())

/-- The device's two HBM arrays as the kernel finds them: its block at its launch contents, its result at anything. -/
def bufs (c : Dev nD) : sProp 𝕄 :=
  iprop((((c : Thread nD τ).loc main_arg0) ↦{fullShare} blk m c) ∗ ∃ f : Buf (Elt F) ((c : Thread nD τ).loc main_v1), (((c : Thread nD τ).loc main_v1) ↦{fullShare} f))

/-- What device `c`'s body starts from besides them: the ghost state at some names, the credit for the two cells
    its partner pays (its barrier's unit, its receive cell's block) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ bufs m c)
/-- After the point: the block unchanged, the result holding the gathered array, the three own cells at zero, closed
    (the barrier cell is the runtime's: nothing to hand back). -/
def Φ₁ (c : Dev nD) : sProp 𝕄 :=
  iprop((((c : Thread nD τ).loc main_arg0) ↦{fullShare} blk m c) ∗ (((c : Thread nD τ).loc main_v1) ↦{fullShare} gathered m c)
    ∗ semVal (locCell c) 0 ∗ semVal (sendCell c) 0 ∗ semVal (recvCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Pair

end
-- ==== Proof.Kernel.Body.lean ====
/-
  One device's part of the exchange, run once at a symbolic device `c` with partner `peer c`.

  In program order: the signal to the partner's barrier hands over the half of `c`'s result that the partner's block
  will land in; the wait on `c`'s own barrier brings the matching half of the partner's result; the addressed
  transfer lends one share of `c`'s block and that half, and owes nothing afterwards; the local copy lends the other
  share and `c`'s own half; the three waits bring back, in turn, the own half at its final contents with one share of
  the block, the other share, and the other half at its final contents. The two halves rejoin to the whole result,
  the two shares to the whole block, and the three own cells close at zero.
-/
import proofs.«900499_g7700000000000500_dist_ag_v7x_xyz2x4x4_x_m2048_n512_f32_1_alg».proof.Proof.Kernel.Data

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What the copies land, against the final contents -/

omit [FloatOps F] in
/-- Seen from the receiving side: what `c`'s transfer lands on `c`'s rows of its partner's result is that result's
    final contents there. -/
theorem gathered_from_peer (c : Dev nD) (fd : Buf (Elt F) ((peer c : Thread nD τ).loc main_v1)) (i : S4096x512.Idx) (hi : i ∈ (half c).view.set) :
    (half c).view.write (Elt F) fd ((xM : Memref sig .tc .hbm S2048x512 .f32).view.read (Elt F) (blk m c)) Finset.univ i = gathered m (peer c) i := by
  have h := gathered_peer m (peer c) fd i (by rw [peer_peer]; exact hi)
  rw [peer_peer] at h
  exact h

omit [FloatOps F] in
theorem landed_peer (c : Dev nD) (fd : Buf (Elt F) ((half c).view.loc (peer c : Thread nD τ))) :
    ((half c).view.loc (peer c : Thread nD τ) ↦[(half c).view.set]{fullShare}
        ((half c).view.write (Elt F) fd ((xM : Memref sig .tc .hbm S2048x512 .f32).view.read (Elt F) (blk m c)) Finset.univ) : sProp 𝕄)
      = halfPts (peer c) c (gathered m (peer c)) := by
  unfold halfPts
  exact pointsTo_congr fun i hi => gathered_from_peer m c fd i hi

omit [FloatOps F] in
theorem landed_own (c : Dev nD) (fd : Buf (Elt F) ((half c).view.loc (c : Thread nD τ))) :
    ((half c).view.loc (c : Thread nD τ) ↦[(half c).view.set]{fullShare}
        ((half c).view.write (Elt F) fd ((xM : Memref sig .tc .hbm S2048x512 .f32).view.read (Elt F) (blk m c)) Finset.univ) : sProp 𝕄)
      = halfPts c c (gathered m c) := by
  unfold halfPts
  exact pointsTo_congr fun i hi => gathered_own m c fd i hi

omit [FloatOps F] in
/-- A result held whole is its own half and its partner's half; and back, at one contents. -/
theorem out_split (c : Dev nD) (f : Buf (Elt F) ((c : Thread nD τ).loc main_v1)) :
    ((((c : Thread nD τ).loc main_v1) ↦{fullShare} f : sProp 𝕄)) ⊣⊢ iprop(halfPts c c f ∗ halfPts c (peer c) f) := by
  unfold halfPts
  rw [← half_compl c]
  exact pointsTo_split_subset (Finset.subset_univ _)

omit [FloatOps F] in
/-- A share of the block through its whole view is that share of the whole buffer. -/
theorem blkPts_eq (c : Dev nD) (q : PosShare TreeShare) :
    blkPts m c q = ((((c : Thread nD τ).loc main_arg0) ↦{q} blk m c : sProp 𝕄)) := by
  unfold blkPts; rw [View.set_whole]

/-! ## The two copies, at the exchange's cells -/

section Body

variable (K : Dev nD × Fin 4 → ℕ)

/-- The addressed transfer of `c`'s block into its rows of the partner's result (`n = peer c`, substituted): it pays
    the send cell's duty with the lent share of the block and the partner's receive duty with those rows rewritten. -/
theorem wp_send_pair (c n : Dev nD) (hn : n = peer c) {hsc : ((half c) : Memref sig (Dev.tc n : Thread nD τ).2.kind .hbm S2048x512 .f32).view.ref.isScScratch = false}
    {hsrc : (xM : Memref sig .tc .hbm S2048x512 .f32).view.WordExact} {hdst : (half c).view.WordExact}
    {hsem : DmaTarget.Typed .hbm (.dma recvS.sem) (.remote (Dev.tc n : Thread nD τ) (half c) (.dma sendS.sem) hsc)}
    {α : Type} {Q : α → sProp 𝕄} {k : PUnit → Prog (TpuEff nD τ sig (Elt F) Λ₀ .tc) α}
    (fn : Buf (Elt F) ((half c).view.loc (peer c : Thread nD τ))) (W : Waits sig Unit) :
    iprop(cellInv ER (pairRd m) (K (c, 2)) (sendCell c) ∗ cellInv ER (pairRd m) (K (peer c, 3)) (recvCell (peer c))
        ∗ blkPts m c fullShare.left ∗ halfPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (half c) (.dma sendS.sem) hsc) (.dma recvS.sem) hsrc hdst hsem) k) Q) := by
  subst hn
  unfold blkPts halfPts
  exact Rounds.wp_send_pointsTo 𝒱₀ ER (pairRd m) (c : Thread nD τ) none (c' := (peer c : Thread nD τ)) (src := xM) (dst := half c) (sS := .dma sendS.sem) (sem := .dma recvS.sem)
    (q := fullShare.left) (fs := blk m c) (κ₁ := K (c, 2)) (κ₂ := K (peer c, 3))
    (r₁ := 0) (r₂ := 0) (d₁ := ()) (d₂ := ()) (fd := fn)
    (by rw [duties_send]; exact Finset.mem_singleton_self _) (by rw [duties_recv]; exact Finset.mem_singleton_self _)
    () () N (N_half c) (amount_send m c ()) (amount_recv m (peer c) ()) 0 (by rw [zero_add]) (W := W)
    (by rw [payload_send]; first | done | exact BI.Entails.refl _)
    (by rw [payload_recv]; unfold recvPay; rw [peer_peer, landed_peer]; first | done | exact BI.Entails.refl _)

/-- The local copy of `c`'s block into its own rows of its own result: it pays the local cell's duty with those rows
    rewritten and the lent share of the block. -/
theorem wp_copy_pair (c : Dev nD)
    {hsrc : (xM : Memref sig .tc .hbm S2048x512 .f32).view.WordExact} {hdst : (half c).view.WordExact}
    {hsem : DmaTarget.Typed (nD := nD) .hbm (.dma locS.sem) (DmaTarget.here (half c) : DmaTarget nD τ sig .tc .hbm S2048x512 .f32)}
    {α : Type} {Q : α → sProp 𝕄} {k : PUnit → Prog (TpuEff nD τ sig (Elt F) Λ₀ .tc) α}
    (fo : Buf (Elt F) ((half c).view.loc (c : Thread nD τ))) :
    iprop(cellInv ER (pairRd m) (K (c, 1)) (locCell c) ∗ blkPts m c fullShare.right ∗ halfPts c c fo
        ∗ dutyTok ER (locCell c) 0 () ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (DmaTarget.here (half c)) (.dma locS.sem) hsrc hdst hsem) k) Q) := by
  unfold blkPts halfPts
  exact Rounds.wp_copy_pointsTo 𝒱₀ ER (pairRd m) (c : Thread nD τ) none (src := xM) (dst := half c) (sem := .dma locS.sem)
    (q := fullShare.right) (fs := blk m c) (fd := fo) (κ := K (c, 1)) (r := 0) (d := ())
    (by rw [duties_loc]; exact Finset.mem_singleton_self _) () N (N_half c) (amount_loc m c ())
    (by rw [payload_loc]; unfold locPay blkPts; rw [landed_own]; first | done | exact BI.Entails.refl _)

def bodyPre (c : Dev nD) : sProp 𝕄 :=
  iprop(ghost m K c ∗ cred (tallyAt (barCell c) () 1) ∗ cred (tallyAt (recvCell c) () N) ∗ levAts L lv ∗ bufs m c
    ∗ (dats m 0 c).owesAt () t₀.castSucc)

def bodyPost (c : Dev nD) : sProp 𝕄 := iprop(Φ₁ m c ∗ (dats m 0 c).owesAt () t₀.succ)

set_option maxRecDepth 8000 in
set_option maxHeartbeats 1600000 in
/-- The body, from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs bufs
  iintro ⟨⟨⟨⟨#HIbar, #HIloc, #HIsnd, #HIrcv, #HIbarP, #HIrcvP⟩, HatB, HatL, HatS, HatV, #HrBP, #HrVP, #HrL, #HrS, #HrV, HtBP, HtVP, HtL, HtS⟩,
    HcB, HcV, #Hlev, ⟨Hx, ⟨%f0, Hout⟩⟩, Ho⟩, Hk⟩
  unfold Dat.owesAt Pipeline.owesWithin
  icases Ho with ⟨%W, %hW, HO⟩
  rw [show (dats m 0 c).owed t₀.castSucc = O₀ c from rfl]
  simp only [dev1_eq c, dev2_eq c]
  -- the result splits into the device's own half and the half its partner's block will land in
  ihave Hh := (out_split c f0).1 $$ Hout
  icases Hh with ⟨Hown, Hoth⟩
  -- the block's two shares: one for the transfer, one for the local copy
  ihave Hxs := (pointsTo_share (PosShare.mem_left_op_right fullShare)).1 $$ Hx
  icases Hxs with ⟨HxL, HxR⟩
  ihave HxL := (Entails.of_eq (blkPts_eq m c fullShare.left).symm) $$ HxL
  ihave HxR := (Entails.of_eq (blkPts_eq m c fullShare.right).symm) $$ HxR
  -- the SIGNAL to the partner's barrier: with it go the other half and that `c` stands at round 0 of its receive cell
  unfold O₀
  iapply (Rounds.wp_signal 𝒱₀ ER (pairRd m) (c : Thread nD τ) none (dst := (peer c : Thread nD τ)) (κ := K (peer c, 0))
      (d := ()) (by rw [duties_bar]; exact Finset.mem_singleton_self _) (amount_bar m (peer c) ()) () (tallyAt (recvCell (peer c)) () N) rfl)
    $$ [HO HtBP Hoth]
  · isplitr; · iexact HIbarP
    isplitl [HO]; · iexact HO
    isplitl [HtBP]; · iexact HtBP
    isplitl [Hoth]
    · rw [payload_bar]; unfold barPay; rw [peer_peer]
      isplitl [Hoth]; · iexists f0; iexact Hoth
      iexact HrV
    · iexact HrBP
  iintro HO
  -- the WAIT on its own barrier, owing the partner's receive credit: the partner's half for `c`'s block comes with it
  iapply (Rounds.wp_wait_rest_token 𝒱₀ ER (pairRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HoutP⟩, #HrVP'⟩
  -- the TRANSFER of the block to the partner
  iapply (wp_send_pair m K c _ (dev2_eq c) fn (insert (SemLoc.reg barS, ()) W)) $$ [HxL HoutP HO HtS HtVP]
  · isplitr; · iexact HIsnd
    isplitr; · iexact HIrcvP
    isplitl [HxL]; · iexact HxL
    isplitl [HoutP]; · iexact HoutP
    isplitl [HO]; · iexact HO
    isplitl [HtS]; · iexact HtS
    isplitr; · iexact HrS
    isplitl [HtVP]; · iexact HtVP
    iexact HrVP
  iintro ⟨HcS, HO⟩
  -- the LOCAL COPY of the block into the device's own half
  iapply (wp_copy_pair m K c f0) $$ [HxR Hown HtL]
  · isplitr; · iexact HIloc
    isplitl [HxR]; · iexact HxR
    isplitl [Hown]; · iexact Hown
    isplitl [HtL]; · iexact HtL
    iexact HrL
  iintro HcL
  -- the wait on the LOCAL cell: the own half at its final contents, and the copy's share of the block
  ihave HcL := (Entails.of_eq (show (cred (tallyAt (locCell c) () N) : sProp 𝕄) = cred (tallyAt (locCell c) () (half c).view.dmaCredit) by rw [N_half])) $$ HcL
  iapply (Rounds.wp_wait_rest_token 𝒱₀ ER (pairRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_loc]; exact N_half c)) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave Hl := (Entails.of_eq (rest_loc m c)) $$ Hpay
  unfold locPay
  icases Hl with ⟨Hown, HxR⟩
  -- the wait on the SEND cell: the transfer's share of the block
  ihave HcS := (Entails.of_eq (show (cred (tallyAt (sendCell c) () N) : sProp 𝕄) = cred (tallyAt (sendCell c) () (xM : Memref sig .tc .hbm S2048x512 .f32).view.dmaCredit) by rw [N_blk])) $$ HcS
  iapply (Rounds.wp_wait_rest_token 𝒱₀ ER (pairRd m) (c : Thread nD τ) none (κ := K (c, 2))
      (wpE_waitDma2_eq 𝒱₀ (c : Thread nD τ) none Set.univ) (Set.mem_univ _) () (O := 0)
      (W := insert (SemLoc.dma locS.sem, ()) (insert (SemLoc.reg barS, ()) W)) (R := 0) (m := 0) (T := ∅)
      (by rw [Nat.zero_add, expect_send]; exact N_blk)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxL := (Entails.of_eq (rest_send m c)) $$ Hpay
  unfold sendPay
  -- the wait on the RECEIVE cell: the other half, holding the partner's block
  ihave HcV := (Entails.of_eq (show (cred (tallyAt (recvCell c) () N) : sProp 𝕄) = cred (tallyAt (recvCell c) () (half c).view.dmaCredit) by rw [N_half])) $$ HcV
  iapply (Rounds.wp_wait_rest_token 𝒱₀ ER (pairRd m) (c : Thread nD τ) none (κ := K (c, 3))
      (wpE_waitDma2_eq 𝒱₀ (c : Thread nD τ) none Set.univ) (Set.mem_univ _) () (O := 0)
      (W := insert (SemLoc.dma sendS.sem, ()) (insert (SemLoc.dma locS.sem, ()) (insert (SemLoc.reg barS, ()) W))) (R := 0) (m := 0) (T := ∅)
      (by rw [Nat.zero_add, expect_recv]; exact N_half c)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hoth := (Entails.of_eq (rest_recv m c)) $$ Hpay
  unfold recvPay
  -- the three own cells close: their counters at zero are the core's again
  imod (Rounds.cell_close ER (pairRd m) (Set.mem_univ (K (c, 1))) (fun h => h) (R := 0 + 1) (duties_later m (locCell c))) $$ [HatL] with HzL
  · isplitr; · iexact HIloc
    iexact HatL
  imod (Rounds.cell_close ER (pairRd m) (Set.mem_univ (K (c, 2))) (fun h => h) (R := 0 + 1) (duties_later m (sendCell c))) $$ [HatS] with HzS
  · isplitr; · iexact HIsnd
    iexact HatS
  imod (Rounds.cell_close ER (pairRd m) (Set.mem_univ (K (c, 3))) (fun h => h) (R := 0 + 1) (duties_later m (recvCell c))) $$ [HatV] with HzV
  · isplitr; · iexact HIrcv
    iexact HatV
  -- the halves rejoin to the result, the shares to the block
  ihave Hout := (out_split c (gathered m c)).2 $$ [Hown Hoth]
  · isplitl [Hown]; · iexact Hown
    iexact Hoth
  ihave HxL := (Entails.of_eq (blkPts_eq m c fullShare.left)) $$ HxL
  ihave HxR := (Entails.of_eq (blkPts_eq m c fullShare.right)) $$ HxR
  ihave Hx := (pointsTo_share (PosShare.mem_left_op_right fullShare)).2 $$ [HxL HxR]
  · isplitl [HxL]; · iexact HxL
    iexact HxR
  rw [wp_ret]; imodintro
  iapply Hk
  unfold bodyPost Φ₁ Dat.owesAt Pipeline.owesWithin
  rw [show (dats m 0 c).owed t₀.succ = 0 from rfl]
  isplitl [Hx Hout HzL HzS HzV]
  · isplitl [Hx]; · iexact Hx
    isplitl [Hout]; · iexact Hout
    isplitl [HzL]; · iexact HzL
    isplitl [HzS]; · iexact HzS
    iexact HzV
  iexists (insert (SemLoc.dma recvS.sem, ()) (insert (SemLoc.dma sendS.sem, ()) (insert (SemLoc.dma locS.sem, ()) (insert (SemLoc.reg barS, ()) W))))
  isplitr; · ipureintro; exact fun _ _ => Or.inl trivial
  iexact HO

omit [FloatOps F] in
/-- The kernel stages no window: a product over its windows is empty. -/
theorem bigSep_W (Φ : Fin cfg0.W → sProp 𝕄) : bigSep Finset.univ Φ = iprop(emp) := by
  rw [show (Finset.univ : Finset (Fin cfg0.W)) = ∅ from Finset.univ_eq_empty]; exact bigSep_empty

set_option maxRecDepth 8000 in
/-- The library's body obligation on device `c`: the kernel's one point takes the invariant before it to the
    invariant after it. -/
theorem body_obligation (c : Dev nD) : BodyObligation (dats (F := F) m 0 c) (defs₀ (F := F)) 𝒱₀ () Set.univ := fun t => by
  rw [fin_N t, bigSep_W, bigSep_W]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2) (fun _ => iprop(Φ₁ m c ∗ (dats m 0 c).owesAt () t₀.succ ∗ emp))
  unfold Φ₀ start
  iintro ⟨⟨⟨⟨%K, Hg⟩, H1, H2, H3⟩, Hb⟩, Ho, -⟩
  iapply (sound_body m K c fun _ => iprop(Φ₁ m c ∗ (dats m 0 c).owesAt () t₀.succ ∗ emp))
  unfold bodyPre bodyPost
  isplitr []
  · isplitl [Hg]; · iexact Hg
    isplitl [H1]; · iexact H1
    isplitl [H2]; · iexact H2
    isplitl [H3]; · iexact H3
    isplitl [Hb]; · iexact Hb
    iexact Ho
  · iintro ⟨HΦ, HO⟩
    isplitl [HΦ]; · iexact HΦ
    isplitl [HO]; · iexact HO
    iempintro

/-- info: 'Cert.Kernel.Pair.body_obligation' depends on axioms: [propext, Classical.choice, Quot.sound] -/
#guard_msgs in #print axioms body_obligation

end Body

end Cert.Kernel.Pair

end
-- ==== Proof.Kernel.Launch.lean ====
/-
  The launch of the pairwise exchange: from the machine's launch holdings to every device's starting invariant, and
  from every device's final invariant to the two arrays read off the final state.

  The exchange's ghost state is funded for all 32 × 4 cells at once. Each cell's invariant is allocated from its
  counter at zero (the three scoped DMA semaphores and the runtime's barrier semaphore) and its round state; the
  records are shared by all devices, the positions stay with their owners, and each duty's token goes to the device
  that pays the duty: a device's barrier and receive tokens to its partner, its local and send tokens to itself.
  The launch credit follows what is owed at launch: device `d` owes its partner's barrier cell one unit and its
  partner's receive cell a block's credit, so each device is credited exactly that much on its own two cells.
  The two HBM arrays are not staged: they pass into the first invariant whole, come out of the last one whole, and
  are read against the final memory there.
-/
import proofs.«900499_g7700000000000500_dist_ag_v7x_xyz2x4x4_x_m2048_n512_f32_1_alg».proof.Proof.Kernel.Data
import Idealize.ShloMosaic.Lib.Pipeline.Launch
import Idealize.ShloMosaic.Lib.Pipeline.Kit

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout facts -/

theorem ownSemFacts : Pipeline.OwnSemFacts cfg0.spec osem := by decide

theorem share_eq (c : Dev nD) (w : Fin cfg0.W) : (dats m 0 c).share w = fullShare := w.elim0

/-! ## The cells, the tokens, the launch element -/

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- A cell's one duty token as minted: round 0, the one duty. -/
abbrev tokOf (ck : Dev nD × Fin 4) : GSem nD τ sig × ℕ × Unit := (kcell ck, 0, ())
theorem tokOf_injective : Function.Injective (tokOf : Dev nD × Fin 4 → GSem nD τ sig × ℕ × Unit) :=
  fun a b h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own four cells. -/
def toks (c : Dev nD) : sProp 𝕄 :=
  iprop(dutyTok ER (barCell c) 0 () ∗ dutyTok ER (locCell c) 0 () ∗ dutyTok ER (sendCell c) 0 () ∗ dutyTok ER (recvCell c) 0 ())

/-- What the launch element deals device `c`. -/
def G (c : Dev nD) : sProp 𝕄 :=
  iprop((bigSep Finset.univ fun k : Fin 4 => roundState ER (pairRd m) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 4 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin4]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero, the invariants allocated -/

omit [FloatOps F] in
/-- The local, send and receive semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (locCell c) 0 ∗ semVal (sendCell c) 0 ∗ semVal (recvCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HL, HS, HV⟩, HB⟩
  isplitl [HB]; · iexact HB
  isplitl [HL]; · iexact HL
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (pairRd m) (kcell (c, k)) 0)
      ⊢ (|={Set.univ}=> bigSep Finset.univ fun k => iprop(∃ κ : ℕ, cellInv ER (pairRd m) κ (kcell (c, k))) : sProp 𝕄) from by
        rw [← bigSep_sep']
        exact (bigSep_mono fun k _ => (Rounds.body_intro ER (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device keeps of all cells: each cell's invariant at its name, and that round 0 of it is reached. -/
def records (K : Dev nD × Fin 4 → ℕ) : sProp 𝕄 :=
  iprop((bigSep Finset.univ fun ck : Dev nD × Fin 4 => cellInv ER (pairRd m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (pairRd m) (K ck) (kcell ck) : sProp 𝕄)) ⊢ cellInv ER (pairRd m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its four positions, and the tokens of the four duties IT pays. -/
def payToks (c : Dev nD) : sProp 𝕄 :=
  iprop(dutyTok ER (barCell (peer c)) 0 () ∗ dutyTok ER (recvCell (peer c)) 0 () ∗ dutyTok ER (locCell c) 0 () ∗ dutyTok ER (sendCell c) 0 ())
def linear (c : Dev nD) : sProp 𝕄 :=
  iprop((atPos ER (barCell c) 0 ∅ 0 ∗ atPos ER (locCell c) 0 ∅ 0 ∗ atPos ER (sendCell c) 0 ∅ 0 ∗ atPos ER (recvCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaL, HaS, HaV⟩, HtB, HtV, HtL, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 3)); iexact HI
  isplitl [HaB]; · iexact HaB
  isplitl [HaL]; · iexact HaL
  isplitl [HaS]; · iexact HaS
  isplitl [HaV]; · iexact HaV
  isplitr; · iapply (reached_at (F := F) (peer c, 0)); iexact HR
  isplitr; · iapply (reached_at (F := F) (peer c, 3)); iexact HR
  isplitr; · iapply (reached_at (F := F) (c, 1)); iexact HR
  isplitr; · iapply (reached_at (F := F) (c, 2)); iexact HR
  isplitr; · iapply (reached_at (F := F) (c, 3)); iexact HR
  isplitl [HtB]; · iexact HtB
  isplitl [HtV]; · iexact HtV
  isplitl [HtL]; · iexact HtL
  iexact HtS

omit [FloatOps F] in
/-- The tokens dealt across the pairs: a device's barrier token and receive token go to its partner, which pays
    those two duties; its local and send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3, H4⟩
  isplitl [H1]; · iexact H1
  isplitl [H4]; · iexact H4
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (pairRd m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: one unit if it is `c`'s partner. -/
theorem owed_bar (d c : Dev nD) : O₀ d (barCell c) () = if d = peer c then 1 else 0 := by
  unfold O₀
  rw [Pi.add_apply, Finsupp.add_apply,
    tallyAt_ne_cell (g := recvCell (peer d)) (g' := barCell c) (fun h => recv_ne_bar (congrArg Prod.snd h).symm) () N,
    tallyAt_apply (barCell (peer d)) () 1 (barCell c) (), Finsupp.zero_apply, Nat.zero_add]
  by_cases h : d = peer c
  · subst h; rw [peer_peer, if_pos ⟨rfl, rfl⟩, if_pos rfl]
  · rw [if_neg (fun ⟨h1, _⟩ => h ((congrArg peer (bar_eq_iff.mp h1)).trans (peer_peer d)).symm), if_neg h]

omit [FloatOps F] in
/-- What it owes `c`'s receive cell: a block's credit if it is `c`'s partner. -/
theorem owed_recv (d c : Dev nD) : O₀ d (recvCell c) () = if d = peer c then N else 0 := by
  unfold O₀
  rw [Pi.add_apply, Finsupp.add_apply, tallyAt_apply (recvCell (peer d)) () N (recvCell c) (),
    tallyAt_ne_cell (g := barCell (peer d)) (g' := recvCell c) (fun h => recv_ne_bar (congrArg Prod.snd h)) () 1,
    Finsupp.zero_apply, Nat.add_zero]
  by_cases h : d = peer c
  · subst h; rw [peer_peer, if_pos ⟨rfl, rfl⟩, if_pos rfl]
  · rw [if_neg (fun ⟨h1, _⟩ => h ((congrArg peer (recv_eq_iff.mp h1)).trans (peer_peer d)).symm), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

/-- What is read off the final state: the block as launched, the result holding the gathered array. -/
def finalPts (c : Dev nD) : sProp 𝕄 :=
  iprop((((c : Thread nD τ).loc main_arg0) ↦{fullShare} blk m c) ∗ (((c : Thread nD τ).loc main_v1) ↦{fullShare} gathered m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold Φ₀ start bufs G'
  isplitl
  · isplitl [HG H1 HN Hlev]
    · isplitl [HG]; · iexact HG
      isplitl [H1]; · iexact H1
      isplitl [HN]; · iexact HN
      iexact Hlev
    · isplitl [Hx]; · iexact Hx
      iexists _; iexact Ho
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨H, -, -⟩
  iexact H

theorem phi1_exit (c : Dev nD) :
    (dats m 0 c).Φ (Fin.last cfg0.N) ⊢ iprop(finalPts m c ∗ Pipeline.ownSems0 osem c ∗ Pipeline.scopedRest cfg0.spec c) := by
  rw [show (dats m 0 c).Φ (Fin.last cfg0.N) = Φ₁ m c from rfl, scopedRest0_eq, ownSems0_eq]
  unfold Φ₁ finalPts
  iintro ⟨Hx, Ho, HzL, HzS, HzV⟩
  isplitl [Hx Ho]
  · isplitl [Hx] <;> iassumption
  isplitl [HzL HzS HzV]
  · isplitl [HzL]; · iexact HzL
    isplitl [HzS] <;> iassumption
  iempintro

/-- No staged window, so no staging cell to wait on. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of 32 devices, for any float values, from any memory with zero counters, given every device's
    body: every weakly fair execution of @main — each pair of devices handshaking on the runtime's barrier semaphore,
    each copying its block into its own result and sending it into its partner's — terminates, and every final state
    has each device's result at the gathered array and its block unchanged. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = gathered m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ w => w.elim0) (hpf := fun _ k => k.elim0)
    (X := Φ₀ m) (Y := finalPts m) (Z := fun _ => iprop(emp))
    (hX := start_intro m ρ) (hin := phi0_intro m) (hout := phi1_exit m)
    (QY := fun c s => s.mem ((c : Thread nD τ).loc main_v1) = gathered m c
      ∧ s.mem ((c : Thread nD τ).loc main_arg0) = m ((c : Thread nD τ).loc main_arg0))
    (hY := fun c s' => by
      unfold finalPts
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun _ h c => (h c).2.2)

/-- info: 'Cert.Kernel.Pair.run_main' depends on axioms: [propext, Classical.choice, Quot.sound] -/
#guard_msgs in #print axioms run_main

end Cert.Kernel.Pair

end
-- ==== Proof.Kernel.Run.lean ====
/-
  The exchange run whole: the launch over the body. On every device the result ends holding the gathered array and the
  block is unchanged.
-/
import proofs.«900499_g7700000000000500_dist_ag_v7x_xyz2x4x4_x_m2048_n512_f32_1_alg».proof.Proof.Kernel.Body
import proofs.«900499_g7700000000000500_dist_ag_v7x_xyz2x4x4_x_m2048_n512_f32_1_alg».proof.Proof.Kernel.Launch

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- At the compiled mesh of 32 devices, for any float values, from any memory with zero counters: every weakly fair
    execution of @main — the sixteen pairs handshaking on the barrier semaphore, then each device copying its block
    into its own result and sending it to its partner's — terminates, and every final state has each device's result
    at its own block on its own rows and its partner's block on the other rows, and its block unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = gathered m c
      ∧ r.2.mem ((c : Thread nD τ).loc main_arg0) = m ((c : Thread nD τ).loc main_arg0)) :=
  run_main m ρ (body_obligation m)

/-- info: 'Cert.Kernel.Pair.run' depends on axioms: [propext, Classical.choice, Quot.sound] -/
#guard_msgs in #print axioms run

end Cert.Kernel.Pair

end
-- ==== Proof.KernelIdeal.Schedule.lean ====
/-
  The pairwise exchange behind this all-gather, as a protocol.

  The 32 devices sit on a 2 × 4 × 4 mesh, device `c` at (c / 16, c / 4 % 4, c % 4), and the array is cut in two
  along its rows over the first axis only: device `c` holds the 2048 rows starting at row 2048 · (c / 16). Every
  device is paired with the one that differs from it in the first coordinate alone — `peer c = c ± 16`, an
  involution — and the pair gathers the whole array between them: each copies its own block into its own result at
  the block's rows, and sends the same block to the same rows of its partner's result. The two destinations on one
  device are the two halves of the result, disjoint and together everything.

  Four semaphores per device carry it. The BARRIER semaphore (waited for 1) is raised once, by the partner, when the
  partner has entered the kernel: with that unit the partner hands over the half of ITS result that this device's
  block will be written to, and the news that it stands at round 0 of its receive cell. The SEND cell is paid by the
  device's own addressed transfer once its source has been read, and gives the source's share back. The RECEIVE cell
  is paid by the partner's transfer once it has landed, and gives back this device's other half holding the
  partner's block. The LOCAL cell is paid by the device's own local copy and gives back its own half holding its own
  block, with the other share of the source. Each cell has one round of one duty.

  A device waits on its barrier while it still owes its partner's receive cell the transfer; barrier cells sit at
  level 1, receive cells at level 2, so the wait is below what is owed and no cycle of waits can form.
-/
import proofs.«900499_g7700000000000500_dist_ag_v7x_xyz2x4x4_x_m2048_n512_f32_1_alg».proof.Proof.Gen.KernelIdeal
import proofs.«900499_g7700000000000500_dist_ag_v7x_xyz2x4x4_x_m2048_n512_f32_1_alg».proof.Proof.Gen.KernelIdeal.Skeleton
import proofs.«900499_g7700000000000500_dist_ag_v7x_xyz2x4x4_x_m2048_n512_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's own (one duty a round: `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The pairing -/

/-- The device across the first mesh axis: the other value of the first coordinate, the other two kept. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
theorem peer_row (c : Dev nD) : (peer c).val / 16 = 1 - c.val / 16 := by revert c; decide
theorem row_le (c : Dev nD) : c.val / 16 ≤ 1 := by revert c; decide

/-- The kernel's two `device_id` chains (the signal's and the transfer's) both name the partner. -/
theorem dev1_eq (c : Dev nD) : (⟨k0_dev1 c, Gen.k0_dev1_lt c⟩ : Dev nD) = peer c :=
  Fin.ext ((k0_dev1_eq c).trans (by revert c; decide))
theorem dev2_eq (c : Dev nD) : (⟨k0_dev2 c, Gen.k0_dev2_lt c⟩ : Dev nD) = peer c :=
  Fin.ext ((k0_dev2_eq c).trans (by revert c; decide))

def pairing : Dev nD ≃ Dev nD := ⟨peer, peer, peer_peer, peer_peer⟩

/-! ## The memrefs and cells -/

/-- A device's block of the array (the kernel's operand) and its result, both whole HBM buffers. -/
abbrev xM : Memref sig .tc .hbm S2048x512 .f32 := Memref.whole main_arg0
abbrev oM : Memref sig .tc .hbm S4096x512 .f32 := Memref.whole main_v1

/-- The rows of a result array that device `d`'s block belongs at: 2048 rows from row 2048 · (d / 16), every column. -/
abbrev half (d : Dev nD) : Memref sig .tc .hbm S2048x512 .f32 :=
  oM.slice (Rect.unit (s := S4096x512) (k0_off1 d) S2048x512.size (Gen.k0_off1_inb d)) (fun _ => rfl)

abbrev barS : Sem sig := (SemArray.scalar (sig.barrier 0 rfl) : Sems sig S_).sem
abbrev locS : DmaSems sig S_ := cc0_scratch0
abbrev sendS : DmaSems sig S_ := cc0_scratch1
abbrev recvS : DmaSems sig S_ := cc0_scratch2

abbrev barCell (c : Dev nD) : GSem nD τ sig := ((c : Thread nD τ), .reg barS)
abbrev locCell (c : Dev nD) : GSem nD τ sig := ((c : Thread nD τ), .dma locS.sem)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: local, send, receive; -/
abbrev osem : Fin 3 → SemLoc sig := fun | 0 => .dma locS.sem | 1 => .dma sendS.sem | 2 => .dma recvS.sem
/-- all four of the exchange's: barrier, local, send, receive. -/
abbrev csem : Fin 4 → SemLoc sig := fun | 0 => .reg barS | 1 => .dma locS.sem | 2 => .dma sendS.sem | 3 => .dma recvS.sem
abbrev kcell (ck : Dev nD × Fin 4) : GSem nD τ sig := ((ck.1 : Thread nD τ), csem ck.2)

/-- What one block's transfer credits a DMA cell, and what the wait for it consumes: a number that depends on the
    block's shape and element type only, the same whichever half or block the view is of. It is only ever compared,
    never computed, so it is sealed once its equations are stated. -/
def N : ℕ := (half (0 : Dev nD)).view.dmaCredit
theorem N_pos : 0 < N := View.dmaCredit_pos _ (by decide)
theorem N_half (d : Dev nD) : (half d).view.dmaCredit = N := rfl
theorem N_blk : (xM : Memref sig .tc .hbm S2048x512 .f32).view.dmaCredit = N := rfl
attribute [irreducible] N

/-! ## The two halves of a result -/

omit [FloatOps F] in
theorem half_set (d : Dev nD) :
    (half d).view.set = (Rect.unit (s := S4096x512) (k0_off1 d) S2048x512.size (Gen.k0_off1_inb d)).set :=
  View.set_slice_whole main_v1 _

/-- Row `i` lies in `d`'s half exactly when `i / 2048` is `d`'s first coordinate. -/
theorem mem_half (d : Dev nD) (i : S4096x512.Idx) :
    i ∈ (half d).view.set ↔ 2048 * (d.val / 16) ≤ (i 0).val ∧ (i 0).val < 2048 * (d.val / 16) + 2048 := by
  rw [half_set, Rect.mem_set_unit, k0_off1_eq, Fin.forall_fin_two]
  have h1 : (i 1).val < 512 := (i 1).isLt
  constructor
  · rintro ⟨h, -⟩; exact h
  · intro h; exact ⟨h, Nat.zero_le _, by show (i 1).val < 0 + 512; omega⟩

/-- The partner's half is the complement of one's own: the two halves are disjoint and cover the result. -/
theorem half_compl (c : Dev nD) : Finset.univ \ (half c).view.set = (half (peer c)).view.set := by
  ext i
  rw [Finset.mem_sdiff, mem_half, mem_half, peer_row]
  have h0 : (i 0).val < 4096 := (i 0).isLt
  have hr := row_le c
  simp only [Finset.mem_univ, true_and]
  omega

theorem half_disjoint (c : Dev nD) : Disjoint (half c).view.set (half (peer c)).view.set := by
  rw [← half_compl]; exact Finset.disjoint_sdiff

/-! ## Contents -/

variable (m : (ℓ : Loc nD τ sig) → Buf (Elt F) ℓ)

/-- Device `c`'s block, as launched. -/
def blk (c : Dev nD) : Buf (Elt F) ((xM : Memref sig .tc .hbm S2048x512 .f32).view.loc (c : Thread nD τ)) :=
  m ((c : Thread nD τ).loc main_arg0)

/-- What device `c`'s result ends holding: on its own half its own block, written there by its local copy, and on
    the other half the partner's block, written there by the partner's transfer. (Each piece is spelt as a write of
    the block through the half's view over the launch contents, of which nothing shows under the view.) -/
def gathered (c : Dev nD) : Buf (Elt F) ((c : Thread nD τ).loc main_v1) := fun i : S4096x512.Idx =>
  if i ∈ (half c).view.set then
    (half c).view.write (Elt F) (m ((c : Thread nD τ).loc main_v1)) ((xM : Memref sig .tc .hbm S2048x512 .f32).view.read (Elt F) (blk m c)) Finset.univ i
  else
    (half (peer c)).view.write (Elt F) (m ((c : Thread nD τ).loc main_v1)) ((xM : Memref sig .tc .hbm S2048x512 .f32).view.read (Elt F) (blk m (peer c))) Finset.univ i

omit [FloatOps F] in
/-- Under a view's own elements an unmasked write shows the written values only: what was there before is gone. -/
theorem write_agree {S : Shape} {e : EltTy} (v : View sig .tc .hbm S e) (f g : v.ty.Contents (Elt F)) (w : S.Idx → Elt F e)
    {i : v.ty.Idx} (hi : i ∈ v.set) : v.write (Elt F) f w Finset.univ i = v.write (Elt F) g w Finset.univ i := by
  obtain ⟨y, rfl⟩ := View.exists_emb_of_mem_set v hi
  rw [View.write_emb_of_mem _ _ (Finset.mem_univ y), View.write_emb_of_mem _ _ (Finset.mem_univ y)]

omit [FloatOps F] in
/-- On its own half a device's result ends at its own block, whatever the half held when the copy was issued. -/
theorem gathered_own (c : Dev nD) (fd : Buf (Elt F) ((c : Thread nD τ).loc main_v1)) (i : S4096x512.Idx) (hi : i ∈ (half c).view.set) :
    (half c).view.write (Elt F) fd ((xM : Memref sig .tc .hbm S2048x512 .f32).view.read (Elt F) (blk m c)) Finset.univ i = gathered m c i := by
  unfold gathered
  rw [if_pos hi]
  exact write_agree (half c).view _ _ _ hi

omit [FloatOps F] in
/-- On the partner's half it ends at the partner's block, whatever that half held when the transfer was issued. -/
theorem gathered_peer (c : Dev nD) (fd : Buf (Elt F) ((c : Thread nD τ).loc main_v1)) (i : S4096x512.Idx) (hi : i ∈ (half (peer c)).view.set) :
    (half (peer c)).view.write (Elt F) fd ((xM : Memref sig .tc .hbm S2048x512 .f32).view.read (Elt F) (blk m (peer c))) Finset.univ i = gathered m c i := by
  have hni : i ∉ (half c).view.set := fun h => by
    rw [mem_half] at h hi; rw [peer_row] at hi; have := row_le c; omega
  unfold gathered
  rw [if_neg hni]
  exact write_agree (half (peer c)).view _ _ _ hi

/-! ## The payloads -/

/-- Device `c`'s own half of its result, at contents `f`; its partner's half; on any device `d`, the rows of `b`'s block. -/
def halfPts (d b : Dev nD) (f : Buf (Elt F) ((half b).view.loc (d : Thread nD τ))) : sProp 𝕄 :=
  (half b).view.loc (d : Thread nD τ) ↦[(half b).view.set]{fullShare} f
/-- A share of device `c`'s block at its launch contents. -/
def blkPts (c : Dev nD) (q : PosShare TreeShare) : sProp 𝕄 :=
  (xM : Memref sig .tc .hbm S2048x512 .f32).view.loc (c : Thread nD τ) ↦[(xM : Memref sig .tc .hbm S2048x512 .f32).view.set]{q} blk m c

omit [FloatOps F] in
instance halfPts_storable (d b : Dev nD) (f) : BI.Storable (upEmb : UEmb _ 𝕄) (halfPts (F := F) d b f) := by unfold halfPts; infer_instance
omit [FloatOps F] in
instance blkPts_storable (c : Dev nD) (q) : BI.Storable (upEmb : UEmb _ 𝕄) (blkPts (F := F) m c q) := by unfold blkPts; infer_instance

/-- With its barrier unit the partner hands device `c` the rows of ITS result that `c`'s block goes to, at whatever
    they hold, and that it stands at round 0 of its receive cell. -/
def barPay (c : Dev nD) : sProp 𝕄 := iprop((∃ f, halfPts (peer c) c f) ∗ reached ER (recvCell (peer c)) 0)
/-- The partner's landed transfer gives device `c` the partner's half of its result at its final contents. -/
def recvPay (c : Dev nD) : sProp 𝕄 := halfPts c (peer c) (gathered m c)
/-- The transfer's source side gives back the share of the block it read. -/
def sendPay (c : Dev nD) : sProp 𝕄 := blkPts m c fullShare.left
/-- The local copy gives back the device's own half at its final contents and the other share of the block. -/
def locPay (c : Dev nD) : sProp 𝕄 := iprop(halfPts c c (gathered m c) ∗ blkPts m c fullShare.right)

/-! ## The schedule -/

abbrev IsBar (g : GSem nD τ sig) : Prop := g.1.2 = .tc ∧ g.2 = .reg barS
abbrev IsDma (g : GSem nD τ sig) : Prop := g.1.2 = .tc ∧ (g.2 = .dma locS.sem ∨ g.2 = .dma sendS.sem ∨ g.2 = .dma recvS.sem)

/-- One round, round 0, one duty in it: a barrier cell's of one unit, a DMA cell's of a block's credit. -/
def pairRd : Rounds.Schedule (GSem nD τ sig) Unit 𝕄 where
  duties g r := if r = 0 ∧ IsBar g then {()} else if r = 0 ∧ IsDma g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else if g.2 = .dma locS.sem then locPay m g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else if g.2 = .dma locS.sem then locPay m g.1.1 else iprop(emp))
  unfold barPay recvPay sendPay locPay
  (repeat' split) <;> infer_instance

section Sched
variable (c : Dev nD)

theorem loc_ne_bar : (SemLoc.dma locS.sem : SemLoc sig) ≠ .reg barS := fun h => by cases h
theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem loc_ne_recv : (SemLoc.dma locS.sem : SemLoc sig) ≠ .dma recvS.sem := by decide
theorem loc_ne_send : (SemLoc.dma locS.sem : SemLoc sig) ≠ .dma sendS.sem := by decide
theorem not_bar_loc : ¬ IsBar (locCell c) := fun h => loc_ne_bar h.2
theorem not_bar_send : ¬ IsBar (sendCell c) := fun h => send_ne_bar h.2
theorem not_bar_recv : ¬ IsBar (recvCell c) := fun h => recv_ne_bar h.2

omit [FloatOps F] in
theorem duties_bar : (pairRd (F := F) m).duties (barCell c) 0 = {()} := by dsimp only [pairRd]; exact if_pos ⟨rfl, rfl, rfl⟩
omit [FloatOps F] in
theorem duties_loc : (pairRd (F := F) m).duties (locCell c) 0 = {()} := by
  dsimp only [pairRd]; rw [if_neg (fun h => not_bar_loc c h.2)]; exact if_pos ⟨rfl, rfl, .inl rfl⟩
omit [FloatOps F] in
theorem duties_send : (pairRd (F := F) m).duties (sendCell c) 0 = {()} := by
  dsimp only [pairRd]; rw [if_neg (fun h => not_bar_send c h.2)]; exact if_pos ⟨rfl, rfl, .inr (.inl rfl)⟩
omit [FloatOps F] in
theorem duties_recv : (pairRd (F := F) m).duties (recvCell c) 0 = {()} := by
  dsimp only [pairRd]; rw [if_neg (fun h => not_bar_recv c h.2)]; exact if_pos ⟨rfl, rfl, .inr (.inr rfl)⟩
omit [FloatOps F] in
theorem duties_later (g : GSem nD τ sig) : ∀ r, 1 ≤ r → (pairRd (F := F) m).duties g r = ∅ :=
  fun r hr => by dsimp only [pairRd]; rw [if_neg fun h => by omega, if_neg fun h => by omega]

omit [FloatOps F] in
theorem amount_bar (d : Unit) : (pairRd (F := F) m).amount (barCell c) 0 d = 1 := by dsimp only [pairRd]; exact if_pos rfl
omit [FloatOps F] in
theorem amount_loc (d : Unit) : (pairRd (F := F) m).amount (locCell c) 0 d = N := by dsimp only [pairRd]; exact if_neg loc_ne_bar
omit [FloatOps F] in
theorem amount_send (d : Unit) : (pairRd (F := F) m).amount (sendCell c) 0 d = N := by dsimp only [pairRd]; exact if_neg send_ne_bar
omit [FloatOps F] in
theorem amount_recv (d : Unit) : (pairRd (F := F) m).amount (recvCell c) 0 d = N := by dsimp only [pairRd]; exact if_neg recv_ne_bar

omit [FloatOps F] in
/-- A round of one duty expects that duty's amount. -/
theorem expect_single (g : GSem nD τ sig) (hd : (pairRd (F := F) m).duties g 0 = {()}) (k : ℕ)
    (ha : (pairRd (F := F) m).amount g 0 () = k) : (pairRd (F := F) m).expect g 0 = k := by
  unfold Schedule.expect Schedule.amountOf
  rw [hd, Finset.sum_singleton, ha]
omit [FloatOps F] in
theorem expect_bar : (pairRd (F := F) m).expect (barCell c) 0 = 1 := expect_single m _ (duties_bar m c) 1 (amount_bar m c ())
omit [FloatOps F] in
theorem expect_loc : (pairRd (F := F) m).expect (locCell c) 0 = N := expect_single m _ (duties_loc m c) N (amount_loc m c ())
omit [FloatOps F] in
theorem expect_send : (pairRd (F := F) m).expect (sendCell c) 0 = N := expect_single m _ (duties_send m c) N (amount_send m c ())
omit [FloatOps F] in
theorem expect_recv : (pairRd (F := F) m).expect (recvCell c) 0 = N := expect_single m _ (duties_recv m c) N (amount_recv m c ())

omit [FloatOps F] in
theorem payload_bar (d : Unit) : (pairRd (F := F) m).payload (barCell c) 0 d = barPay c := by dsimp only [pairRd]; rw [if_pos rfl]
omit [FloatOps F] in
theorem payload_recv (d : Unit) : (pairRd (F := F) m).payload (recvCell c) 0 d = recvPay m c := by
  dsimp only [pairRd]; rw [if_neg recv_ne_bar, if_pos rfl]
omit [FloatOps F] in
theorem payload_send (d : Unit) : (pairRd (F := F) m).payload (sendCell c) 0 d = sendPay m c := by
  dsimp only [pairRd]; rw [if_neg send_ne_bar, if_neg send_ne_recv, if_pos rfl]
omit [FloatOps F] in
theorem payload_loc (d : Unit) : (pairRd (F := F) m).payload (locCell c) 0 d = locPay m c := by
  dsimp only [pairRd]; rw [if_neg loc_ne_bar, if_neg loc_ne_recv, if_neg loc_ne_send, if_pos rfl]

omit [FloatOps F] in
/-- The whole of a cell's round, no duty taken yet, is its one payload. -/
theorem rest_bar : bigSep ((pairRd (F := F) m).duties (barCell c) 0 \ ∅) (fun d => (pairRd (F := F) m).payload (barCell c) 0 d) = barPay c := by
  rw [Finset.sdiff_empty, duties_bar, bigSep_singleton, payload_bar]
omit [FloatOps F] in
theorem rest_loc : bigSep ((pairRd (F := F) m).duties (locCell c) 0 \ ∅) (fun d => (pairRd (F := F) m).payload (locCell c) 0 d) = locPay m c := by
  rw [Finset.sdiff_empty, duties_loc, bigSep_singleton, payload_loc]
omit [FloatOps F] in
theorem rest_send : bigSep ((pairRd (F := F) m).duties (sendCell c) 0 \ ∅) (fun d => (pairRd (F := F) m).payload (sendCell c) 0 d) = sendPay m c := by
  rw [Finset.sdiff_empty, duties_send, bigSep_singleton, payload_send]
omit [FloatOps F] in
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Sched

/-! ## What each device owes at launch; the levels -/

/-- Device `c` owes its partner's receive cell a block's credit and its partner's barrier cell one unit — summed so
    that the signal, which comes first, peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, the rest (local, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Pair

end
-- ==== Proof.KernelIdeal.Data.lean ====
/-
  What one device holds while it takes part in the exchange: the ghost state of its four cells, the invariant
  before the kernel's one point and after it, and the pipeline's proof data (a kernel with no staged window).
-/
import proofs.«900499_g7700000000000500_dist_ag_v7x_xyz2x4x4_x_m2048_n512_f32_1_alg».proof.Proof.KernelIdeal.Schedule

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The cells' invariants device `c`'s body opens, under the names `K` the launch allocated them at: its own four, and
    its partner's barrier cell (its signal) and receive cell (its transfer). -/
def invs (K : Dev nD × Fin 4 → ℕ) (c : Dev nD) : sProp 𝕄 :=
  iprop(cellInv ER (pairRd m) (K (c, 0)) (barCell c) ∗ cellInv ER (pairRd m) (K (c, 1)) (locCell c)
    ∗ cellInv ER (pairRd m) (K (c, 2)) (sendCell c) ∗ cellInv ER (pairRd m) (K (c, 3)) (recvCell c)
    ∗ cellInv ER (pairRd m) (K (peer c, 0)) (barCell (peer c)) ∗ cellInv ER (pairRd m) (K (peer c, 3)) (recvCell (peer c)))

instance invs_persistent (K : Dev nD × Fin 4 → ℕ) (c : Dev nD) : BI.Persistent (invs m K c) := by unfold invs; infer_instance

/-- The exchange's ghost state device `c` starts from: the invariants; its positions at round 0 of its four cells; the
    reached-marks of the two cells of its partner it pays and of its own three DMA cells; the four duty tokens it pays
    with — its partner's barrier duty and receive duty, its own local and send duties. -/
def ghost (K : Dev nD × Fin 4 → ℕ) (c : Dev nD) : sProp 𝕄 :=
  iprop(invs m K c
    ∗ atPos ER (barCell c) 0 ∅ 0 ∗ atPos ER (locCell c) 0 ∅ 0 ∗ atPos ER (sendCell c) 0 ∅ 0 ∗ atPos ER (recvCell c) 0 ∅ 0
    ∗ reached ER (barCell (peer c)) 0 ∗ reached ER (recvCell (peer c)) 0 ∗ reached ER (locCell c) 0 ∗ reached ER (sendCell c) 0 ∗ reached ER (recvCell c) 0
    ∗ dutyTok ER (barCell (peer c)) 0 () ∗ dutyTok ER (recvCell (peer c)) 0 () ∗ dutyTok ER (locCell c) 0 () ∗ dutyTok ER (sendCell c) 0 ())

/-- The device's two HBM arrays as the kernel finds them: its block at its launch contents, its result at anything. -/
def bufs (c : Dev nD) : sProp 𝕄 :=
  iprop((((c : Thread nD τ).loc main_arg0) ↦{fullShare} blk m c) ∗ ∃ f : Buf (Elt F) ((c : Thread nD τ).loc main_v1), (((c : Thread nD τ).loc main_v1) ↦{fullShare} f))

/-- What device `c`'s body starts from besides them: the ghost state at some names, the credit for the two cells
    its partner pays (its barrier's unit, its receive cell's block) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ bufs m c)
/-- After the point: the block unchanged, the result holding the gathered array, the three own cells at zero, closed
    (the barrier cell is the runtime's: nothing to hand back). -/
def Φ₁ (c : Dev nD) : sProp 𝕄 :=
  iprop((((c : Thread nD τ).loc main_arg0) ↦{fullShare} blk m c) ∗ (((c : Thread nD τ).loc main_v1) ↦{fullShare} gathered m c)
    ∗ semVal (locCell c) 0 ∗ semVal (sendCell c) 0 ∗ semVal (recvCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Pair

end
-- ==== Proof.KernelIdeal.Body.lean ====
/-
  One device's part of the exchange, run once at a symbolic device `c` with partner `peer c`.

  In program order: the signal to the partner's barrier hands over the half of `c`'s result that the partner's block
  will land in; the wait on `c`'s own barrier brings the matching half of the partner's result; the addressed
  transfer lends one share of `c`'s block and that half, and owes nothing afterwards; the local copy lends the other
  share and `c`'s own half; the three waits bring back, in turn, the own half at its final contents with one share of
  the block, the other share, and the other half at its final contents. The two halves rejoin to the whole result,
  the two shares to the whole block, and the three own cells close at zero.
-/
import proofs.«900499_g7700000000000500_dist_ag_v7x_xyz2x4x4_x_m2048_n512_f32_1_alg».proof.Proof.KernelIdeal.Data

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What the copies land, against the final contents -/

omit [FloatOps F] in
/-- Seen from the receiving side: what `c`'s transfer lands on `c`'s rows of its partner's result is that result's
    final contents there. -/
theorem gathered_from_peer (c : Dev nD) (fd : Buf (Elt F) ((peer c : Thread nD τ).loc main_v1)) (i : S4096x512.Idx) (hi : i ∈ (half c).view.set) :
    (half c).view.write (Elt F) fd ((xM : Memref sig .tc .hbm S2048x512 .f32).view.read (Elt F) (blk m c)) Finset.univ i = gathered m (peer c) i := by
  have h := gathered_peer m (peer c) fd i (by rw [peer_peer]; exact hi)
  rw [peer_peer] at h
  exact h

omit [FloatOps F] in
theorem landed_peer (c : Dev nD) (fd : Buf (Elt F) ((half c).view.loc (peer c : Thread nD τ))) :
    ((half c).view.loc (peer c : Thread nD τ) ↦[(half c).view.set]{fullShare}
        ((half c).view.write (Elt F) fd ((xM : Memref sig .tc .hbm S2048x512 .f32).view.read (Elt F) (blk m c)) Finset.univ) : sProp 𝕄)
      = halfPts (peer c) c (gathered m (peer c)) := by
  unfold halfPts
  exact pointsTo_congr fun i hi => gathered_from_peer m c fd i hi

omit [FloatOps F] in
theorem landed_own (c : Dev nD) (fd : Buf (Elt F) ((half c).view.loc (c : Thread nD τ))) :
    ((half c).view.loc (c : Thread nD τ) ↦[(half c).view.set]{fullShare}
        ((half c).view.write (Elt F) fd ((xM : Memref sig .tc .hbm S2048x512 .f32).view.read (Elt F) (blk m c)) Finset.univ) : sProp 𝕄)
      = halfPts c c (gathered m c) := by
  unfold halfPts
  exact pointsTo_congr fun i hi => gathered_own m c fd i hi

omit [FloatOps F] in
/-- A result held whole is its own half and its partner's half; and back, at one contents. -/
theorem out_split (c : Dev nD) (f : Buf (Elt F) ((c : Thread nD τ).loc main_v1)) :
    ((((c : Thread nD τ).loc main_v1) ↦{fullShare} f : sProp 𝕄)) ⊣⊢ iprop(halfPts c c f ∗ halfPts c (peer c) f) := by
  unfold halfPts
  rw [← half_compl c]
  exact pointsTo_split_subset (Finset.subset_univ _)

omit [FloatOps F] in
/-- A share of the block through its whole view is that share of the whole buffer. -/
theorem blkPts_eq (c : Dev nD) (q : PosShare TreeShare) :
    blkPts m c q = ((((c : Thread nD τ).loc main_arg0) ↦{q} blk m c : sProp 𝕄)) := by
  unfold blkPts; rw [View.set_whole]

/-! ## The two copies, at the exchange's cells -/

section Body

variable (K : Dev nD × Fin 4 → ℕ)

/-- The addressed transfer of `c`'s block into its rows of the partner's result (`n = peer c`, substituted): it pays
    the send cell's duty with the lent share of the block and the partner's receive duty with those rows rewritten. -/
theorem wp_send_pair (c n : Dev nD) (hn : n = peer c) {hsc : ((half c) : Memref sig (Dev.tc n : Thread nD τ).2.kind .hbm S2048x512 .f32).view.ref.isScScratch = false}
    {hsrc : (xM : Memref sig .tc .hbm S2048x512 .f32).view.WordExact} {hdst : (half c).view.WordExact}
    {hsem : DmaTarget.Typed .hbm (.dma recvS.sem) (.remote (Dev.tc n : Thread nD τ) (half c) (.dma sendS.sem) hsc)}
    {α : Type} {Q : α → sProp 𝕄} {k : PUnit → Prog (TpuEff nD τ sig (Elt F) Λ₀ .tc) α}
    (fn : Buf (Elt F) ((half c).view.loc (peer c : Thread nD τ))) (W : Waits sig Unit) :
    iprop(cellInv ER (pairRd m) (K (c, 2)) (sendCell c) ∗ cellInv ER (pairRd m) (K (peer c, 3)) (recvCell (peer c))
        ∗ blkPts m c fullShare.left ∗ halfPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (half c) (.dma sendS.sem) hsc) (.dma recvS.sem) hsrc hdst hsem) k) Q) := by
  subst hn
  unfold blkPts halfPts
  exact Rounds.wp_send_pointsTo 𝒱₀ ER (pairRd m) (c : Thread nD τ) none (c' := (peer c : Thread nD τ)) (src := xM) (dst := half c) (sS := .dma sendS.sem) (sem := .dma recvS.sem)
    (q := fullShare.left) (fs := blk m c) (κ₁ := K (c, 2)) (κ₂ := K (peer c, 3))
    (r₁ := 0) (r₂ := 0) (d₁ := ()) (d₂ := ()) (fd := fn)
    (by rw [duties_send]; exact Finset.mem_singleton_self _) (by rw [duties_recv]; exact Finset.mem_singleton_self _)
    () () N (N_half c) (amount_send m c ()) (amount_recv m (peer c) ()) 0 (by rw [zero_add]) (W := W)
    (by rw [payload_send]; first | done | exact BI.Entails.refl _)
    (by rw [payload_recv]; unfold recvPay; rw [peer_peer, landed_peer]; first | done | exact BI.Entails.refl _)

/-- The local copy of `c`'s block into its own rows of its own result: it pays the local cell's duty with those rows
    rewritten and the lent share of the block. -/
theorem wp_copy_pair (c : Dev nD)
    {hsrc : (xM : Memref sig .tc .hbm S2048x512 .f32).view.WordExact} {hdst : (half c).view.WordExact}
    {hsem : DmaTarget.Typed (nD := nD) .hbm (.dma locS.sem) (DmaTarget.here (half c) : DmaTarget nD τ sig .tc .hbm S2048x512 .f32)}
    {α : Type} {Q : α → sProp 𝕄} {k : PUnit → Prog (TpuEff nD τ sig (Elt F) Λ₀ .tc) α}
    (fo : Buf (Elt F) ((half c).view.loc (c : Thread nD τ))) :
    iprop(cellInv ER (pairRd m) (K (c, 1)) (locCell c) ∗ blkPts m c fullShare.right ∗ halfPts c c fo
        ∗ dutyTok ER (locCell c) 0 () ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (DmaTarget.here (half c)) (.dma locS.sem) hsrc hdst hsem) k) Q) := by
  unfold blkPts halfPts
  exact Rounds.wp_copy_pointsTo 𝒱₀ ER (pairRd m) (c : Thread nD τ) none (src := xM) (dst := half c) (sem := .dma locS.sem)
    (q := fullShare.right) (fs := blk m c) (fd := fo) (κ := K (c, 1)) (r := 0) (d := ())
    (by rw [duties_loc]; exact Finset.mem_singleton_self _) () N (N_half c) (amount_loc m c ())
    (by rw [payload_loc]; unfold locPay blkPts; rw [landed_own]; first | done | exact BI.Entails.refl _)

def bodyPre (c : Dev nD) : sProp 𝕄 :=
  iprop(ghost m K c ∗ cred (tallyAt (barCell c) () 1) ∗ cred (tallyAt (recvCell c) () N) ∗ levAts L lv ∗ bufs m c
    ∗ (dats m 0 c).owesAt () t₀.castSucc)

def bodyPost (c : Dev nD) : sProp 𝕄 := iprop(Φ₁ m c ∗ (dats m 0 c).owesAt () t₀.succ)

set_option maxRecDepth 8000 in
set_option maxHeartbeats 1600000 in
/-- The body, from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs bufs
  iintro ⟨⟨⟨⟨#HIbar, #HIloc, #HIsnd, #HIrcv, #HIbarP, #HIrcvP⟩, HatB, HatL, HatS, HatV, #HrBP, #HrVP, #HrL, #HrS, #HrV, HtBP, HtVP, HtL, HtS⟩,
    HcB, HcV, #Hlev, ⟨Hx, ⟨%f0, Hout⟩⟩, Ho⟩, Hk⟩
  unfold Dat.owesAt Pipeline.owesWithin
  icases Ho with ⟨%W, %hW, HO⟩
  rw [show (dats m 0 c).owed t₀.castSucc = O₀ c from rfl]
  simp only [dev1_eq c, dev2_eq c]
  -- the result splits into the device's own half and the half its partner's block will land in
  ihave Hh := (out_split c f0).1 $$ Hout
  icases Hh with ⟨Hown, Hoth⟩
  -- the block's two shares: one for the transfer, one for the local copy
  ihave Hxs := (pointsTo_share (PosShare.mem_left_op_right fullShare)).1 $$ Hx
  icases Hxs with ⟨HxL, HxR⟩
  ihave HxL := (Entails.of_eq (blkPts_eq m c fullShare.left).symm) $$ HxL
  ihave HxR := (Entails.of_eq (blkPts_eq m c fullShare.right).symm) $$ HxR
  -- the SIGNAL to the partner's barrier: with it go the other half and that `c` stands at round 0 of its receive cell
  unfold O₀
  iapply (Rounds.wp_signal 𝒱₀ ER (pairRd m) (c : Thread nD τ) none (dst := (peer c : Thread nD τ)) (κ := K (peer c, 0))
      (d := ()) (by rw [duties_bar]; exact Finset.mem_singleton_self _) (amount_bar m (peer c) ()) () (tallyAt (recvCell (peer c)) () N) rfl)
    $$ [HO HtBP Hoth]
  · isplitr; · iexact HIbarP
    isplitl [HO]; · iexact HO
    isplitl [HtBP]; · iexact HtBP
    isplitl [Hoth]
    · rw [payload_bar]; unfold barPay; rw [peer_peer]
      isplitl [Hoth]; · iexists f0; iexact Hoth
      iexact HrV
    · iexact HrBP
  iintro HO
  -- the WAIT on its own barrier, owing the partner's receive credit: the partner's half for `c`'s block comes with it
  iapply (Rounds.wp_wait_rest_token 𝒱₀ ER (pairRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HoutP⟩, #HrVP'⟩
  -- the TRANSFER of the block to the partner
  iapply (wp_send_pair m K c _ (dev2_eq c) fn (insert (SemLoc.reg barS, ()) W)) $$ [HxL HoutP HO HtS HtVP]
  · isplitr; · iexact HIsnd
    isplitr; · iexact HIrcvP
    isplitl [HxL]; · iexact HxL
    isplitl [HoutP]; · iexact HoutP
    isplitl [HO]; · iexact HO
    isplitl [HtS]; · iexact HtS
    isplitr; · iexact HrS
    isplitl [HtVP]; · iexact HtVP
    iexact HrVP
  iintro ⟨HcS, HO⟩
  -- the LOCAL COPY of the block into the device's own half
  iapply (wp_copy_pair m K c f0) $$ [HxR Hown HtL]
  · isplitr; · iexact HIloc
    isplitl [HxR]; · iexact HxR
    isplitl [Hown]; · iexact Hown
    isplitl [HtL]; · iexact HtL
    iexact HrL
  iintro HcL
  -- the wait on the LOCAL cell: the own half at its final contents, and the copy's share of the block
  ihave HcL := (Entails.of_eq (show (cred (tallyAt (locCell c) () N) : sProp 𝕄) = cred (tallyAt (locCell c) () (half c).view.dmaCredit) by rw [N_half])) $$ HcL
  iapply (Rounds.wp_wait_rest_token 𝒱₀ ER (pairRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_loc]; exact N_half c)) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave Hl := (Entails.of_eq (rest_loc m c)) $$ Hpay
  unfold locPay
  icases Hl with ⟨Hown, HxR⟩
  -- the wait on the SEND cell: the transfer's share of the block
  ihave HcS := (Entails.of_eq (show (cred (tallyAt (sendCell c) () N) : sProp 𝕄) = cred (tallyAt (sendCell c) () (xM : Memref sig .tc .hbm S2048x512 .f32).view.dmaCredit) by rw [N_blk])) $$ HcS
  iapply (Rounds.wp_wait_rest_token 𝒱₀ ER (pairRd m) (c : Thread nD τ) none (κ := K (c, 2))
      (wpE_waitDma2_eq 𝒱₀ (c : Thread nD τ) none Set.univ) (Set.mem_univ _) () (O := 0)
      (W := insert (SemLoc.dma locS.sem, ()) (insert (SemLoc.reg barS, ()) W)) (R := 0) (m := 0) (T := ∅)
      (by rw [Nat.zero_add, expect_send]; exact N_blk)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxL := (Entails.of_eq (rest_send m c)) $$ Hpay
  unfold sendPay
  -- the wait on the RECEIVE cell: the other half, holding the partner's block
  ihave HcV := (Entails.of_eq (show (cred (tallyAt (recvCell c) () N) : sProp 𝕄) = cred (tallyAt (recvCell c) () (half c).view.dmaCredit) by rw [N_half])) $$ HcV
  iapply (Rounds.wp_wait_rest_token 𝒱₀ ER (pairRd m) (c : Thread nD τ) none (κ := K (c, 3))
      (wpE_waitDma2_eq 𝒱₀ (c : Thread nD τ) none Set.univ) (Set.mem_univ _) () (O := 0)
      (W := insert (SemLoc.dma sendS.sem, ()) (insert (SemLoc.dma locS.sem, ()) (insert (SemLoc.reg barS, ()) W))) (R := 0) (m := 0) (T := ∅)
      (by rw [Nat.zero_add, expect_recv]; exact N_half c)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hoth := (Entails.of_eq (rest_recv m c)) $$ Hpay
  unfold recvPay
  -- the three own cells close: their counters at zero are the core's again
  imod (Rounds.cell_close ER (pairRd m) (Set.mem_univ (K (c, 1))) (fun h => h) (R := 0 + 1) (duties_later m (locCell c))) $$ [HatL] with HzL
  · isplitr; · iexact HIloc
    iexact HatL
  imod (Rounds.cell_close ER (pairRd m) (Set.mem_univ (K (c, 2))) (fun h => h) (R := 0 + 1) (duties_later m (sendCell c))) $$ [HatS] with HzS
  · isplitr; · iexact HIsnd
    iexact HatS
  imod (Rounds.cell_close ER (pairRd m) (Set.mem_univ (K (c, 3))) (fun h => h) (R := 0 + 1) (duties_later m (recvCell c))) $$ [HatV] with HzV
  · isplitr; · iexact HIrcv
    iexact HatV
  -- the halves rejoin to the result, the shares to the block
  ihave Hout := (out_split c (gathered m c)).2 $$ [Hown Hoth]
  · isplitl [Hown]; · iexact Hown
    iexact Hoth
  ihave HxL := (Entails.of_eq (blkPts_eq m c fullShare.left)) $$ HxL
  ihave HxR := (Entails.of_eq (blkPts_eq m c fullShare.right)) $$ HxR
  ihave Hx := (pointsTo_share (PosShare.mem_left_op_right fullShare)).2 $$ [HxL HxR]
  · isplitl [HxL]; · iexact HxL
    iexact HxR
  rw [wp_ret]; imodintro
  iapply Hk
  unfold bodyPost Φ₁ Dat.owesAt Pipeline.owesWithin
  rw [show (dats m 0 c).owed t₀.succ = 0 from rfl]
  isplitl [Hx Hout HzL HzS HzV]
  · isplitl [Hx]; · iexact Hx
    isplitl [Hout]; · iexact Hout
    isplitl [HzL]; · iexact HzL
    isplitl [HzS]; · iexact HzS
    iexact HzV
  iexists (insert (SemLoc.dma recvS.sem, ()) (insert (SemLoc.dma sendS.sem, ()) (insert (SemLoc.dma locS.sem, ()) (insert (SemLoc.reg barS, ()) W))))
  isplitr; · ipureintro; exact fun _ _ => Or.inl trivial
  iexact HO

omit [FloatOps F] in
/-- The kernel stages no window: a product over its windows is empty. -/
theorem bigSep_W (Φ : Fin cfg0.W → sProp 𝕄) : bigSep Finset.univ Φ = iprop(emp) := by
  rw [show (Finset.univ : Finset (Fin cfg0.W)) = ∅ from Finset.univ_eq_empty]; exact bigSep_empty

set_option maxRecDepth 8000 in
/-- The library's body obligation on device `c`: the kernel's one point takes the invariant before it to the
    invariant after it. -/
theorem body_obligation (c : Dev nD) : BodyObligation (dats (F := F) m 0 c) (defs₀ (F := F)) 𝒱₀ () Set.univ := fun t => by
  rw [fin_N t, bigSep_W, bigSep_W]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2) (fun _ => iprop(Φ₁ m c ∗ (dats m 0 c).owesAt () t₀.succ ∗ emp))
  unfold Φ₀ start
  iintro ⟨⟨⟨⟨%K, Hg⟩, H1, H2, H3⟩, Hb⟩, Ho, -⟩
  iapply (sound_body m K c fun _ => iprop(Φ₁ m c ∗ (dats m 0 c).owesAt () t₀.succ ∗ emp))
  unfold bodyPre bodyPost
  isplitr []
  · isplitl [Hg]; · iexact Hg
    isplitl [H1]; · iexact H1
    isplitl [H2]; · iexact H2
    isplitl [H3]; · iexact H3
    isplitl [Hb]; · iexact Hb
    iexact Ho
  · iintro ⟨HΦ, HO⟩
    isplitl [HΦ]; · iexact HΦ
    isplitl [HO]; · iexact HO
    iempintro

/-- info: 'Cert.KernelIdeal.Pair.body_obligation' depends on axioms: [propext, Classical.choice, Quot.sound] -/
#guard_msgs in #print axioms body_obligation

end Body

end Cert.KernelIdeal.Pair

end
-- ==== Proof.KernelIdeal.Launch.lean ====
/-
  The launch of the pairwise exchange: from the machine's launch holdings to every device's starting invariant, and
  from every device's final invariant to the two arrays read off the final state.

  The exchange's ghost state is funded for all 32 × 4 cells at once. Each cell's invariant is allocated from its
  counter at zero (the three scoped DMA semaphores and the runtime's barrier semaphore) and its round state; the
  records are shared by all devices, the positions stay with their owners, and each duty's token goes to the device
  that pays the duty: a device's barrier and receive tokens to its partner, its local and send tokens to itself.
  The launch credit follows what is owed at launch: device `d` owes its partner's barrier cell one unit and its
  partner's receive cell a block's credit, so each device is credited exactly that much on its own two cells.
  The two HBM arrays are not staged: they pass into the first invariant whole, come out of the last one whole, and
  are read against the final memory there.
-/
import proofs.«900499_g7700000000000500_dist_ag_v7x_xyz2x4x4_x_m2048_n512_f32_1_alg».proof.Proof.KernelIdeal.Data
import Idealize.ShloMosaic.Lib.Pipeline.Launch
import Idealize.ShloMosaic.Lib.Pipeline.Kit

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout facts -/

theorem ownSemFacts : Pipeline.OwnSemFacts cfg0.spec osem := by decide

theorem share_eq (c : Dev nD) (w : Fin cfg0.W) : (dats m 0 c).share w = fullShare := w.elim0

/-! ## The cells, the tokens, the launch element -/

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- A cell's one duty token as minted: round 0, the one duty. -/
abbrev tokOf (ck : Dev nD × Fin 4) : GSem nD τ sig × ℕ × Unit := (kcell ck, 0, ())
theorem tokOf_injective : Function.Injective (tokOf : Dev nD × Fin 4 → GSem nD τ sig × ℕ × Unit) :=
  fun a b h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own four cells. -/
def toks (c : Dev nD) : sProp 𝕄 :=
  iprop(dutyTok ER (barCell c) 0 () ∗ dutyTok ER (locCell c) 0 () ∗ dutyTok ER (sendCell c) 0 () ∗ dutyTok ER (recvCell c) 0 ())

/-- What the launch element deals device `c`. -/
def G (c : Dev nD) : sProp 𝕄 :=
  iprop((bigSep Finset.univ fun k : Fin 4 => roundState ER (pairRd m) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 4 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin4]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero, the invariants allocated -/

omit [FloatOps F] in
/-- The local, send and receive semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (locCell c) 0 ∗ semVal (sendCell c) 0 ∗ semVal (recvCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HL, HS, HV⟩, HB⟩
  isplitl [HB]; · iexact HB
  isplitl [HL]; · iexact HL
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (pairRd m) (kcell (c, k)) 0)
      ⊢ (|={Set.univ}=> bigSep Finset.univ fun k => iprop(∃ κ : ℕ, cellInv ER (pairRd m) κ (kcell (c, k))) : sProp 𝕄) from by
        rw [← bigSep_sep']
        exact (bigSep_mono fun k _ => (Rounds.body_intro ER (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device keeps of all cells: each cell's invariant at its name, and that round 0 of it is reached. -/
def records (K : Dev nD × Fin 4 → ℕ) : sProp 𝕄 :=
  iprop((bigSep Finset.univ fun ck : Dev nD × Fin 4 => cellInv ER (pairRd m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (pairRd m) (K ck) (kcell ck) : sProp 𝕄)) ⊢ cellInv ER (pairRd m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its four positions, and the tokens of the four duties IT pays. -/
def payToks (c : Dev nD) : sProp 𝕄 :=
  iprop(dutyTok ER (barCell (peer c)) 0 () ∗ dutyTok ER (recvCell (peer c)) 0 () ∗ dutyTok ER (locCell c) 0 () ∗ dutyTok ER (sendCell c) 0 ())
def linear (c : Dev nD) : sProp 𝕄 :=
  iprop((atPos ER (barCell c) 0 ∅ 0 ∗ atPos ER (locCell c) 0 ∅ 0 ∗ atPos ER (sendCell c) 0 ∅ 0 ∗ atPos ER (recvCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaL, HaS, HaV⟩, HtB, HtV, HtL, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 3)); iexact HI
  isplitl [HaB]; · iexact HaB
  isplitl [HaL]; · iexact HaL
  isplitl [HaS]; · iexact HaS
  isplitl [HaV]; · iexact HaV
  isplitr; · iapply (reached_at (F := F) (peer c, 0)); iexact HR
  isplitr; · iapply (reached_at (F := F) (peer c, 3)); iexact HR
  isplitr; · iapply (reached_at (F := F) (c, 1)); iexact HR
  isplitr; · iapply (reached_at (F := F) (c, 2)); iexact HR
  isplitr; · iapply (reached_at (F := F) (c, 3)); iexact HR
  isplitl [HtB]; · iexact HtB
  isplitl [HtV]; · iexact HtV
  isplitl [HtL]; · iexact HtL
  iexact HtS

omit [FloatOps F] in
/-- The tokens dealt across the pairs: a device's barrier token and receive token go to its partner, which pays
    those two duties; its local and send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3, H4⟩
  isplitl [H1]; · iexact H1
  isplitl [H4]; · iexact H4
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (pairRd m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: one unit if it is `c`'s partner. -/
theorem owed_bar (d c : Dev nD) : O₀ d (barCell c) () = if d = peer c then 1 else 0 := by
  unfold O₀
  rw [Pi.add_apply, Finsupp.add_apply,
    tallyAt_ne_cell (g := recvCell (peer d)) (g' := barCell c) (fun h => recv_ne_bar (congrArg Prod.snd h).symm) () N,
    tallyAt_apply (barCell (peer d)) () 1 (barCell c) (), Finsupp.zero_apply, Nat.zero_add]
  by_cases h : d = peer c
  · subst h; rw [peer_peer, if_pos ⟨rfl, rfl⟩, if_pos rfl]
  · rw [if_neg (fun ⟨h1, _⟩ => h ((congrArg peer (bar_eq_iff.mp h1)).trans (peer_peer d)).symm), if_neg h]

omit [FloatOps F] in
/-- What it owes `c`'s receive cell: a block's credit if it is `c`'s partner. -/
theorem owed_recv (d c : Dev nD) : O₀ d (recvCell c) () = if d = peer c then N else 0 := by
  unfold O₀
  rw [Pi.add_apply, Finsupp.add_apply, tallyAt_apply (recvCell (peer d)) () N (recvCell c) (),
    tallyAt_ne_cell (g := barCell (peer d)) (g' := recvCell c) (fun h => recv_ne_bar (congrArg Prod.snd h)) () 1,
    Finsupp.zero_apply, Nat.add_zero]
  by_cases h : d = peer c
  · subst h; rw [peer_peer, if_pos ⟨rfl, rfl⟩, if_pos rfl]
  · rw [if_neg (fun ⟨h1, _⟩ => h ((congrArg peer (recv_eq_iff.mp h1)).trans (peer_peer d)).symm), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

/-- What is read off the final state: the block as launched, the result holding the gathered array. -/
def finalPts (c : Dev nD) : sProp 𝕄 :=
  iprop((((c : Thread nD τ).loc main_arg0) ↦{fullShare} blk m c) ∗ (((c : Thread nD τ).loc main_v1) ↦{fullShare} gathered m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold Φ₀ start bufs G'
  isplitl
  · isplitl [HG H1 HN Hlev]
    · isplitl [HG]; · iexact HG
      isplitl [H1]; · iexact H1
      isplitl [HN]; · iexact HN
      iexact Hlev
    · isplitl [Hx]; · iexact Hx
      iexists _; iexact Ho
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨H, -, -⟩
  iexact H

theorem phi1_exit (c : Dev nD) :
    (dats m 0 c).Φ (Fin.last cfg0.N) ⊢ iprop(finalPts m c ∗ Pipeline.ownSems0 osem c ∗ Pipeline.scopedRest cfg0.spec c) := by
  rw [show (dats m 0 c).Φ (Fin.last cfg0.N) = Φ₁ m c from rfl, scopedRest0_eq, ownSems0_eq]
  unfold Φ₁ finalPts
  iintro ⟨Hx, Ho, HzL, HzS, HzV⟩
  isplitl [Hx Ho]
  · isplitl [Hx] <;> iassumption
  isplitl [HzL HzS HzV]
  · isplitl [HzL]; · iexact HzL
    isplitl [HzS] <;> iassumption
  iempintro

/-- No staged window, so no staging cell to wait on. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of 32 devices, for any float values, from any memory with zero counters, given every device's
    body: every weakly fair execution of @main — each pair of devices handshaking on the runtime's barrier semaphore,
    each copying its block into its own result and sending it into its partner's — terminates, and every final state
    has each device's result at the gathered array and its block unchanged. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c : Thread nD τ).loc main_v1) = gathered m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ w => w.elim0) (hpf := fun _ k => k.elim0)
    (X := Φ₀ m) (Y := finalPts m) (Z := fun _ => iprop(emp))
    (hX := start_intro m ρ) (hin := phi0_intro m) (hout := phi1_exit m)
    (QY := fun c s => s.mem ((c : Thread nD τ).loc main_v1) = gathered m c
      ∧ s.mem ((c : Thread nD τ).loc main_arg0) = m ((c : Thread nD τ).loc main_arg0))
    (hY := fun c s' => by
      unfold finalPts
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun _ h c => (h c).2.2)

/-- info: 'Cert.KernelIdeal.Pair.run_main' depends on axioms: [propext, Classical.choice, Quot.sound] -/
#guard_msgs in #print axioms run_main

end Cert.KernelIdeal.Pair

end
-- ==== Proof.KernelIdeal.Run.lean ====
/-
  The exchange run whole: the launch over the body. On every device the result ends holding the gathered array and the
  block is unchanged.
-/
import proofs.«900499_g7700000000000500_dist_ag_v7x_xyz2x4x4_x_m2048_n512_f32_1_alg».proof.Proof.KernelIdeal.Body
import proofs.«900499_g7700000000000500_dist_ag_v7x_xyz2x4x4_x_m2048_n512_f32_1_alg».proof.Proof.KernelIdeal.Launch

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- At the compiled mesh of 32 devices, for any float values, from any memory with zero counters: every weakly fair
    execution of @main — the sixteen pairs handshaking on the barrier semaphore, then each device copying its block
    into its own result and sending it to its partner's — terminates, and every final state has each device's result
    at its own block on its own rows and its partner's block on the other rows, and its block unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = gathered m c
      ∧ r.2.mem ((c : Thread nD τ).loc main_arg0) = m ((c : Thread nD τ).loc main_arg0)) :=
  run_main m ρ (body_obligation m)

/-- info: 'Cert.KernelIdeal.Pair.run' depends on axioms: [propext, Classical.choice, Quot.sound] -/
#guard_msgs in #print axioms run

end Cert.KernelIdeal.Pair

end
-- ==== Proof.GatherValue.lean ====
/-
  The value of the pairwise all-gather.

  Device `c` of the 2 × 4 × 4 mesh holds block `c / 16` of a 4096 × 512 array `X`, cut in two along its rows;
  its partner `peer c` holds the other block. What device `c`'s result ends holding (`gathered`) is, on the rows of
  its own half, its own block written through that half's view, and on the other rows its partner's block written
  through the partner's half. A half's view places row `r` of a block at row `2048 · (d / 16) + r` of the result,
  which is where block `d / 16` of `X` has its row `r`: so both pieces are `X` on their rows, and since the two
  halves cover the result, the result is `X`.
-/
import proofs.«900499_g7700000000000500_dist_ag_v7x_xyz2x4x4_x_m2048_n512_f32_1_alg».proof.Proof.KernelIdeal.Schedule
import Idealize.ShloMosaic.Lib.Layout
import Idealize.ShloMosaic.Lib.Pipeline.Value

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Which block a device holds -/

/-- Along the rows (cut over the first mesh axis) device `d` holds block `d / 16`; -/
theorem lin_rows (d : Dev nD) : Layout.meshLin [2, 4, 4] d.val [0] = d.val / 16 := by revert d; decide
/-- the columns are not cut: one block. -/
theorem lin_cols (d : Dev nD) : Layout.meshLin [2, 4, 4] d.val [] = 0 := rfl

/-- The offsets of a device's half, by coordinate. -/
theorem off_row (d : Dev nD) : k0_off1 d 0 = 2048 * (d.val / 16) := by rw [Gen.k0_off1_eq]; rfl
theorem off_col (d : Dev nD) : k0_off1 d 1 = 0 := by rw [Gen.k0_off1_eq]; rfl

/-! ## A block's index under the half's view -/

/-- Where a half's view places index `y` of a block is where the block device `d` holds of a whole array has it:
    `d / 16` blocks of 2048 rows down, the column kept. -/
theorem blockN_half {α : Type} (d : Dev nD) (X : S4096x512.Idx → α) (y : S2048x512.Idx) :
    (Layout.blockN ⟨2, ![2048, 512]⟩ ⟨2, ![4096, 512]⟩ (Layout.meshBlock [2, 4, 4] ![[0], []] d) X) y
      = X ((half d).view.emb y) := by
  rw [Layout.blockN_apply]
  refine congrArg X (funext fun a => Fin.ext ?_)
  rw [Layout.TilesN.idx_val]
  revert a
  rw [Fin.forall_fin_two]
  constructor
  · show Layout.meshLin [2, 4, 4] d.val [0] * 2048 + (y 0).val = k0_off1 d 0 + 1 * (y 0).val
    rw [lin_rows, off_row]; omega
  · show Layout.meshLin [2, 4, 4] d.val [] * 512 + (y 1).val = k0_off1 d 1 + 1 * (y 1).val
    rw [lin_cols, off_col]; omega

/-! ## One piece of the result -/

omit [FloatOps F] in
/-- Under the half of device `b`, the block `b` holds of `X` written through that half's view shows `X`. -/
theorem half_write_eq (m : (ℓ : Loc nD τ sig) → Buf (Elt F) ℓ) (X : S4096x512.Idx → Elt F .f32)
    (hX : ∀ c : Dev nD, m ((c : Thread nD τ).loc main_arg0)
      = Layout.blockN ⟨2, ![2048, 512]⟩ ⟨2, ![4096, 512]⟩ (Layout.meshBlock [2, 4, 4] ![[0], []] c) X)
    (b : Dev nD) (fd : (half b).view.ty.Contents (Elt F)) (i : S4096x512.Idx) (hi : i ∈ (half b).view.set) :
    (half b).view.write (Elt F) fd ((xM : Memref sig .tc .hbm S2048x512 .f32).view.read (Elt F) (blk m b)) Finset.univ i = X i := by
  obtain ⟨y, rfl⟩ := View.exists_emb_of_mem_set (half b).view hi
  rw [View.write_emb_of_mem _ _ (Finset.mem_univ y)]
  show blk m b y = X ((half b).view.emb y)
  unfold blk
  rw [hX b]
  exact blockN_half b X y

/-! ## The whole result -/

omit [FloatOps F] in
/-- From blocks of `X` laid over the mesh's first axis, every device's result ends holding `X`. -/
theorem gathered_of_blocks (m : (ℓ : Loc nD τ sig) → Buf (Elt F) ℓ) (X : S4096x512.Idx → Elt F .f32)
    (hX : ∀ c : Dev nD, m ((c : Thread nD τ).loc main_arg0)
      = Layout.blockN ⟨2, ![2048, 512]⟩ ⟨2, ![4096, 512]⟩ (Layout.meshBlock [2, 4, 4] ![[0], []] c) X) (c : Dev nD) :
    gathered m c = X := by
  funext i
  unfold gathered
  by_cases hi : i ∈ (half c).view.set
  · rw [if_pos hi]
    exact half_write_eq m X hX c _ i hi
  · rw [if_neg hi]
    have hi' : i ∈ (half (peer c)).view.set := by
      rw [← half_compl c]
      exact Finset.mem_sdiff.mpr ⟨Finset.mem_univ i, hi⟩
    exact half_write_eq m X hX (peer c) _ i hi'

end Cert.KernelIdeal.Pair

end
-- ==== Proof.ReferenceRun.lean ====
import proofs.«900499_g7700000000000500_dist_ag_v7x_xyz2x4x4_x_m2048_n512_f32_1_alg».proof.Proof.Gen.ReferenceIdeal
import Idealize.ShloMosaic.Lib.StableHlo.Run

/-!
# The reference's run

The reference's @main performs no operation: it returns its argument. Read as a straight line of
host operations it is the empty line, so every weakly fair execution terminates and leaves every
buffer at its launch contents; in particular the argument buffer holds at the end what it held at
the start.
-/

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: none. -/
abbrev ops : List (HloOp τ sig (Elt F)) := []

/-- @main is the empty line of operations. -/
theorem main_eq (c : Dev nD) : main (F := F) c = seq ops := rfl

/-- No buffer of the signature is scoped. -/
theorem scopedRefs_eq : (Finset.univ.filter fun b : Ref sig .tc => b.isScoped) = ∅ := by decide

/-- The signature has no semaphore, so none is scoped. -/
theorem scopedSems_eq : (Finset.univ.filter fun sm : SemLoc sig => sm.isScoped .tc) = ∅ := by decide

/-- Every operation of the empty line touches TensorCore references only: there is none to check. -/
theorem ops_sub : (ops : List (HloOp τ sig (Elt F))).Forall fun op => op.bufs ⊆ tcRefs τ sig := trivial

/-- On the one device, for any float values, from any memory with zero counters: every weakly fair
    execution of @main terminates with the argument buffer unchanged. The fold of no operation over
    the launch contents is the launch contents. -/
theorem run {F : FTy → Type} [FloatOps F] (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) :=
  (θ_run defs _ _).mono (fun _ h c => (h c main_arg0).trans rfl)
    (run_seq scopedRefs_eq scopedSems_eq defs main (fun _ => ops) main_eq (fun _ => ops_sub) m ρ
      (fun _ _ h => nomatch h))

end Cert.ReferenceIdeal.Whole

end
-- ==== Proof.lean ====
/-
  The certificate of a pairwise all-gather on 32 devices against the identity.

  The array, 4096 rows of 512, is cut in two along its rows over the first axis of a 2 × 4 × 4 mesh; the sixteen pairs of
  devices that differ in that coordinate alone each gather it: a device copies its 2048-row block into its own result at
  the block's rows and sends the same block to the same rows of its partner's result, after the two have met on the
  barrier semaphore. The reference returns the whole array unchanged.

  Every device's result therefore ends at the whole array: on its own rows its own block, which is that part of the
  array, and on the other rows its partner's block, which is the other part (no arithmetic is done on the values, so no
  use is made of their being finite). The kernel's run, with that result named, is the launch of the exchange over one
  device's body; the frames are the same run with the values dropped, at each float instance; the idealization
  rewrote nothing; and the reference's run is the run of no operation.
-/
import proofs.«900499_g7700000000000500_dist_ag_v7x_xyz2x4x4_x_m2048_n512_f32_1_alg».proof.Defs
import proofs.«900499_g7700000000000500_dist_ag_v7x_xyz2x4x4_x_m2048_n512_f32_1_alg».proof.Proof.Gen.Kernel
import proofs.«900499_g7700000000000500_dist_ag_v7x_xyz2x4x4_x_m2048_n512_f32_1_alg».proof.Proof.Gen.KernelIdeal
import proofs.«900499_g7700000000000500_dist_ag_v7x_xyz2x4x4_x_m2048_n512_f32_1_alg».proof.Proof.Gen.ReferenceIdeal
import proofs.«900499_g7700000000000500_dist_ag_v7x_xyz2x4x4_x_m2048_n512_f32_1_alg».proof.Proof.Gen.Pre_finite_inputs_Kernel
import proofs.«900499_g7700000000000500_dist_ag_v7x_xyz2x4x4_x_m2048_n512_f32_1_alg».proof.Proof.Gen.Pre_finite_inputs_ReferenceIdeal
import proofs.«900499_g7700000000000500_dist_ag_v7x_xyz2x4x4_x_m2048_n512_f32_1_alg».proof.Proof.Kernel.Run
import proofs.«900499_g7700000000000500_dist_ag_v7x_xyz2x4x4_x_m2048_n512_f32_1_alg».proof.Proof.KernelIdeal.Run
import proofs.«900499_g7700000000000500_dist_ag_v7x_xyz2x4x4_x_m2048_n512_f32_1_alg».proof.Proof.GatherValue
import proofs.«900499_g7700000000000500_dist_ag_v7x_xyz2x4x4_x_m2048_n512_f32_1_alg».proof.Proof.ReferenceRun
import Idealize.ShloMosaic.Adequacy
import Idealize.ShloMosaic.Init

noncomputable section

namespace Cert.Proof

open Idealize.ShloMosaic Idealize.ShloMosaic.TcCoe Idealize.SL.Sem

/-- The word-level kernel runs and leaves every device's block as it was: the exchange's run, the result forgotten. -/
theorem frame_k : Cert.frame_Kernel := fun m ρ _ =>
  (θ_run Cert.Kernel.defs _ _).mono (fun _ h c => (h c).2) (Cert.Kernel.Pair.run (F := Bits) m ρ)

/-- The same of the idealized kernel. -/
theorem frame_ki : Cert.frame_KernelIdeal := fun m ρ _ =>
  (θ_run Cert.KernelIdeal.defs _ _).mono (fun _ h c => (h c).2) (Cert.KernelIdeal.Pair.run (F := Ideal) m ρ)

/-- The reference does nothing, so it ends, and its array is as it was. -/
theorem frame_ri : Cert.frame_ReferenceIdeal := fun m ρ _ => Cert.ReferenceIdeal.Whole.run (F := Ideal) m ρ

/-- The ideal pass rewrote no operation. -/
theorem preserves : Cert.preserves_Kernel_KernelIdeal := trivial

/-- From blocks of one whole array, every device's result ends at that array — which is what the reference returns. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h c).1.trans (Cert.KernelIdeal.Pair.gathered_of_blocks m _ hagree c), (h c).2⟩)
      (Cert.KernelIdeal.Pair.run (F := Ideal) m ρ)
  · exact (θ_run Cert.ReferenceIdeal.defs _ _).mono (fun _ h => ⟨h 0, h 0⟩) (Cert.ReferenceIdeal.Whole.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
